-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S11008x1 : Shape := ⟨2, ![11008, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_

variable [Facts]

def fn {F : FTy → Type} [FloatOps F] (main_arg0 : FVec F S4x2048x4096 .f32) (main_arg1 : IVec S512x11008 32) (main_arg2 : FVec F S11008x1 .f32) (main_arg3 : FVec F S11008x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg3
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  main_v13
-- ==== Kernel.lean ====
abbrev S4x2048x4096 : Shape := ⟨3, ![4, 2048, 4096]⟩
abbrev S512x11008 : Shape := ⟨2, ![512, 11008]⟩
abbrev S11008x1 : Shape := ⟨2, ![11008, 1]⟩
abbrev S1x11008 : Shape := ⟨2, ![1, 11008]⟩
abbrev S4096x11008 : Shape := ⟨2, ![4096, 11008]⟩
abbrev S512x256 : Shape := ⟨2, ![512, 256]⟩
abbrev S1x256 : Shape := ⟨2, ![1, 256]⟩
abbrev S4096x256 : Shape := ⟨2, ![4096, 256]⟩
abbrev S512x1x256 : Shape := ⟨3, ![512, 1, 256]⟩
abbrev S512x8x256 : Shape := ⟨3, ![512, 8, 256]⟩
abbrev S4096x1 : Shape := ⟨2, ![4096, 1]⟩
abbrev S8192x4096 : Shape := ⟨2, ![8192, 4096]⟩
abbrev S8192x11008 : Shape := ⟨2, ![8192, 11008]⟩
abbrev S1024x512 : Shape := ⟨2, ![1024, 512]⟩
abbrev S512x1024 : Shape := ⟨2, ![512, 1024]⟩
abbrev S1024x1024 : Shape := ⟨2, ![1024, 1024]⟩
abbrev S4x2048x11008 : Shape := ⟨3, ![4, 2048, 11008]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S11008x1, .f32⟩
  | .hbm, ⟨3, _⟩ => ⟨S11008x1, .f32⟩
  | .hbm, ⟨4, _⟩ => ⟨S1x11008, .f32⟩
  | .hbm, ⟨5, _⟩ => ⟨S1x11008, .f32⟩
  | .hbm, ⟨6, _⟩ => ⟨S4096x11008, .bf16⟩
  | .hbm, ⟨7, _⟩ => ⟨S8192x4096, .f32⟩
  | .hbm, ⟨8, _⟩ => ⟨S8192x11008, .f32⟩
  | .hbm, ⟨9, _⟩ => ⟨S4x2048x11008, .f32⟩
  | .local _ .vmem, ⟨0, _⟩ => ⟨S512x256, .i32⟩
  | .local _ .vmem, ⟨1, _⟩ => ⟨S512x256, .i32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S4096x256, .bf16⟩
  | .local _ .vmem, ⟨7, _⟩ => ⟨S4096x256, .bf16⟩
  | .local _ .vmem, ⟨8, _⟩ => ⟨S1024x512, .f32⟩
  | .local _ .vmem, ⟨9, _⟩ => ⟨S1024x512, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 11, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S11008x1_S1x11008 : S11008x1.ShapeCasts S1x11008
  inb_S512x256_S512x256_0_0 : ∀ a, (![0, 0] : Fin 2 → Nat) a + S512x256.size a ≤ S512x256.size a
  h_S512x256 : 0 < S512x256.numel
  shapeCasts_S512x256_S512x1x256 : S512x256.ShapeCasts S512x1x256
  broadcasts_S512x1x256_S512x8x256 : S512x1x256.Broadcasts S512x8x256
  shapeCasts_S512x8x256_S4096x256 : S512x8x256.ShapeCasts S4096x256
  iota_S4096x1_d0_w32 : S4096x1.Iotas .tc 32 [0]
  broadcasts_S4096x1_S4096x256 : S4096x1.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x11008_S4x2048x11008 : S8192x11008.ShapeCasts S4x2048x11008
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x11008.size a
  hwx0_0 : ∀ i : grid0.Coords, EltTy.bits .i32 = 32 ∨ (Rect.block (s := S512x11008) S512x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x11008.size a
  hwx0_1 : ∀ i : grid0.Coords, EltTy.bits .f32 = 32 ∨ (Rect.block (s := S1x11008) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S512x1024.size a < S4096x11008.size a
  hwx1_1 : ∀ i : grid1.Coords, EltTy.bits .bf16 = 32 ∨ (Rect.unit (s := S4096x11008) (fun a => cc1_transform_1 i a * S512x1024.size a) (fun a => (Pipeline.Clip.of (cc1_transform_1 i a) (S512x1024.size a) (S4096x11008.size a)).extent (S512x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S512x1024) (fun _ => 0) (fun a => (Pipeline.Clip.of (cc1_transform_1 i a) (S512x1024.size a) (S4096x11008.size a)).extent (S512x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x1024.size a < S8192x11008.size a
  hwx1_2 : ∀ i : grid1.Coords, EltTy.bits .f32 = 32 ∨ (Rect.unit (s := S8192x11008) (fun a => cc1_transform_2 i a * S1024x1024.size a) (fun a => (Pipeline.Clip.of (cc1_transform_2 i a) (S1024x1024.size a) (S8192x11008.size a)).extent (S1024x1024.size a)) fun a => Pipeline.Clip.inb (Pipeline.Clip.ok_of (hstart1_2 i a))).WholeWords (EltTy.packing .f32)
  hwxs1_2 : ∀ i : grid1.Coords, EltTy.bits .f32 = 32 ∨ (Rect.unit (s := S1024x1024) (fun _ => 0) (fun a => (Pipeline.Clip.of (cc1_transform_2 i a) (S1024x1024.size a) (S8192x11008.size a)).extent (S1024x1024.size a)) fun a => (Nat.zero_add _).trans_le (Pipeline.Clip.extent_le (Pipeline.Clip.ok_of (hstart1_2 i a)))).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v2) S512x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v4) S1024x1024.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S11008x1 : Shape := ⟨2, ![11008, 1]⟩
abbrev S4096 : Shape := ⟨1, ![4096]⟩
abbrev S_ : Shape := ⟨0, ![]⟩
abbrev S4096x1 : Shape := ⟨2, ![4096, 1]⟩
abbrev S4096x11008 : Shape := ⟨2, ![4096, 11008]⟩
abbrev S11008x4096 : Shape := ⟨2, ![11008, 4096]⟩
abbrev S4x2048x11008 : Shape := ⟨3, ![4, 2048, 11008]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S11008x1, .f32⟩
  | .hbm, ⟨3, _⟩ => ⟨S11008x1, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S_, .i1⟩
  | .hbm, ⟨45, _⟩ => ⟨S4096, .i1⟩
  | .hbm, ⟨46, _⟩ => ⟨S4096, .i1⟩
  | .hbm, ⟨47, _⟩ => ⟨S4096, .i1⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x11008, .i32⟩
  | .hbm, ⟨66, _⟩ => ⟨S4096x1, .i32⟩
  | .hbm, ⟨67, _⟩ => ⟨S4096x11008, .i32⟩
  | .hbm, ⟨68, _⟩ => ⟨S4096x11008, .i32⟩
  | .hbm, ⟨69, _⟩ => ⟨S_, .i32⟩
  | .hbm, ⟨70, _⟩ => ⟨S4096x11008, .i32⟩
  | .hbm, ⟨71, _⟩ => ⟨S4096x11008, .i32⟩
  | .hbm, ⟨72, _⟩ => ⟨S11008x4096, .i32⟩
  | .hbm, ⟨73, _⟩ => ⟨S11008x4096, .f32⟩
  | .hbm, ⟨74, _⟩ => ⟨S11008x4096, .f32⟩
  | .hbm, ⟨75, _⟩ => ⟨S11008x4096, .f32⟩
  | .hbm, ⟨76, _⟩ => ⟨S11008x4096, .f32⟩
  | .hbm, ⟨77, _⟩ => ⟨S11008x4096, .f32⟩
  | .hbm, ⟨78, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_c_2 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v6 : Ref sig .tc := ⟨.hbm, 50, rfl⟩
abbrev main_c_3 : Ref sig .tc := ⟨.hbm, 51, rfl⟩
abbrev main_v7 : Ref sig .tc := ⟨.hbm, 52, rfl⟩
abbrev main_v8 : Ref sig .tc := ⟨.hbm, 53, rfl⟩
abbrev main_c_4 : Ref sig .tc := ⟨.hbm, 54, rfl⟩
abbrev main_v9 : Ref sig .tc := ⟨.hbm, 55, rfl⟩
abbrev main_v10 : Ref sig .tc := ⟨.hbm, 56, rfl⟩
abbrev main_c_5 : Ref sig .tc := ⟨.hbm, 57, rfl⟩
abbrev main_v11 : Ref sig .tc := ⟨.hbm, 58, rfl⟩
abbrev main_v12 : Ref sig .tc := ⟨.hbm, 59, rfl⟩
abbrev main_c_6 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_c_7 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  bcast_S_S4096x11008 : S_.BroadcastsInDim S4096x11008 (![] : Fin 0 → Fin S4096x11008.rank)
  transposes_S4096x11008_S11008x4096_1_0 : S4096x11008.Transposes [1, 0] S11008x4096
  bcast_S11008x1_S11008x4096_0_1 : S11008x1.BroadcastsInDim S11008x4096 (![0, 1] : Fin 2 → Fin S11008x4096.rank)
  gather_S512x11008_S4096x1_S4096x11008_1_0_n_n_0_1_111008_wf : GatherDims.WF S512x11008 S4096x1 S4096x11008 [1] [0] [] [0] [] 1 ![1, 11008]
  dot_S4x2048x4096_S11008x4096_S4x2048x11008_2_1_01_0_n_n_wf : DotDims.WF S4x2048x4096 S11008x4096 S4x2048x11008 [2] [1] [0, 1] [0] [] []

variable [Facts₀]

def gather_S512x11008_S4096x1_S4096x11008_1_0_n_n_0_1_111008 : GatherDims S512x11008 S4096x1 S4096x11008 where
  offsetDims := [1]
  collapsedSliceDims := [0]
  operandBatchingDims := []
  startIndicesBatchingDims := []
  startIndexMap := [0]
  indexVectorDim := 1
  sliceSizes := ![1, 11008]
  wf := gather_S512x11008_S4096x1_S4096x11008_1_0_n_n_0_1_111008_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.K0Defs.lean ====
/-
  The dequantisation call (the first of the program's two kernel calls) as data for the pipeline rule, at any float
  instance. The call walks the 43 column tiles of the packed weight: at a tile it is handed the tile's 512×256 packed
  words and the tile's 256 scales and zero points, and leaves the 4096×256 tile of dequantised weights
  (row r takes the 4-bit field r mod 8, counted from the top, of packed row r div 8). The entry contents `V` of the
  TensorCore's buffers are a parameter.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 4096×256 output tile as a rectangle of itself. -/
abbrev r0w : Rect S4096x256 := Rect.unit (s := S4096x256) ![0, 0] S4096x256.size inb_S4096x256_S4096x256_0_0

/-- What the body leaves in the output tile's buffer: its one whole store, of the dequantised tile computed from the
    three loaded blocks. -/
def out0_3 (x0 : Vec F S512x256 .i32) (x1 : Vec F S1x256 .f32) (x2 : Vec F S1x256 .f32) : Vec F S4096x256 .bf16 :=
  View.canon [⟨r0w, k0_pay1 x0 x1 x2⟩]

/-- The call's data on core `c`: the arrays as found; after the body each input buffer at its block and the output
    buffer at the dequantised tile; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.K1Defs.lean ====
/-
  The matrix-product call (the second kernel call) as data for the pipeline rule, at any float instance. Its grid is
  8 row tiles × 11 column tiles × 8 steps along the contracted axis, the step innermost: at a point it is handed a
  1024×512 block of x and a 512×1024 block of the dequantised weight, and adds their product into the 1024×1024 output
  block, which it first zeroes at step 0 and which is written back after step 7. The eleventh column tile overhangs the
  array (11008 = 10·1024 + 768): of the weight block and of the output block only the leading 768 columns are moved, and
  what the buffers hold past them is not named. The entry contents `V` of the TensorCore's buffers are a parameter.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- x's 1024×512 block at point `t` (never cut). -/
def xblk1 (c : Dev nD) (t : Fin cfg1.N) : Vec F S1024x512 .f32 := iblk1 V c 0 t

/-- The weight's 512×1024 block at point `t` as a whole staging block: the part inside the array, and the zero word
    on the columns past the array's end (a filler nothing reads). -/
def wblk1 (c : Dev nD) (t : Fin cfg1.N) : Vec F S512x1024 .bf16 :=
  win1_1.fill (grid1.coords t) (fun _ => Scalar.ofBits .bf16 0#16) (iblk1 V c 1 t)

/-- THE ACCUMULATION. The output block's buffer after the body at position `n`, computed with the fillers above:
    at a step 0 the product added to the zero block, at a later step added to what the step before left. -/
def acc1 (c : Dev nD) : (n : ℕ) → n < cfg1.N → Vec F S1024x1024 .f32
  | 0, hn => k1_pay2 (xblk1 V c ⟨0, hn⟩) (k1_pay1 (F := F)) (wblk1 V c ⟨0, hn⟩)
  | n + 1, hn =>
    if (n + 1) % 8 = 0 then k1_pay2 (xblk1 V c ⟨n + 1, hn⟩) (k1_pay1 (F := F)) (wblk1 V c ⟨n + 1, hn⟩)
    else k1_pay2 (xblk1 V c ⟨n + 1, hn⟩) (acc1 c n (Nat.lt_of_succ_lt hn)) (wblk1 V c ⟨n + 1, hn⟩)

theorem acc1_reset (c : Dev nD) (t : Fin cfg1.N) (h : t.val % 8 = 0) :
    acc1 V c t.val t.isLt = k1_pay2 (xblk1 V c t) (k1_pay1 (F := F)) (wblk1 V c t) := by
  obtain ⟨n, hn⟩ := t
  cases n with
  | zero => rfl
  | succ n => exact (if_pos h).trans rfl

theorem acc1_step (c : Dev nD) (t : Fin cfg1.N) (h : ¬t.val % 8 = 0) :
    acc1 V c t.val t.isLt = k1_pay2 (xblk1 V c t)
      (acc1 V c (t.val - 1) (Nat.lt_of_le_of_lt (Nat.sub_le _ _) t.isLt)) (wblk1 V c t) := by
  obtain ⟨n, hn⟩ := t
  cases n with
  | zero => exact absurd (Nat.zero_mod _) h
  | succ n => exact (if_neg h).trans rfl

/-- The call's data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk1 V c t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = acc1 V c t.val t.isLt := by dsimp only [dat1]

end Cert.KernelIdeal.Hand

end
-- ==== Proof.KLaunch.lean ====
/-
  The launch of the whole program at any float instance: @main is a stretch of host reshapes, the dequantisation call,
  a reshape of x, the matrix-product call, and the reshape of the result. Between the items the TensorCore's unscoped
  buffers are held at named contents: the launch contents; after the two reshapes of scale and zero point; with the
  weight array at what the first call's 43 write-backs leave; after the reshape of x; with the result array at some
  contents `o` the second call's write-backs may leave; and after the last reshape. The second call's windows may be left
  unnamed (`fgt1`): then all that is known of `o` is that it is such contents, which is all the frame needs; with every
  window named, `o` is what the call's data compute.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K0Defs
import proofs.«414396_j90658169684410_3_alg».proof.Proof.K1Defs
import proofs.«414396_j90658169684410_3_alg».proof.Proof.Gen.KernelIdeal.Regions
import Idealize.ShloMosaic.Lib.Pipeline.Regions
import Idealize.ShloMosaic.Lib.Pipeline.Cells
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What the first call is entered from, read at the TensorCore's references. -/
abbrev Ve1 : (c : Dev nD) → (b : Ref sig .tc) → Buf (Elt F) ((c : Thread nD τ).loc b) := fun c b => V1 m c b

/-- After the first call: its arrays at what its write-backs leave, every other buffer as entered. -/
def W2 (c : Dev nD) : Valuation τ sig (Elt F) :=
  Pipeline.withArrays spec0 c (V1 m c) fun w => (dat0 (Ve1 m) c).arrAt w cfg0.N

/-- After the reshape of x. -/
abbrev W3 (c : Dev nD) : Valuation τ sig (Elt F) := StableHlo.after hostOps1 (W2 m c)
abbrev Ve3 : (c : Dev nD) → (b : Ref sig .tc) → Buf (Elt F) ((c : Thread nD τ).loc b) := fun c b => W3 m c b

/-- The second call's arrays at its exit, the result array at `o`: the two inputs as entered. -/
def F1 (c : Dev nD) (o : Buf (Elt F) ((c : Thread nD τ).loc main_v4)) :
    (w : Fin cfg1.W) → Buf (Elt F) ((spec1 w).arr.view.loc (c : Thread nD τ))
  | ⟨0, _⟩ => Ve3 m c main_v3
  | ⟨1, _⟩ => Ve3 m c main_v2
  | ⟨2, _⟩ => o

/-- After the second call, the result array at `o`. -/
def W4 (c : Dev nD) (o : Buf (Elt F) ((c : Thread nD τ).loc main_v4)) : Valuation τ sig (Elt F) :=
  Pipeline.withArrays spec1 c (W3 m c) (F1 m c o)

/-- After the last reshape. -/
abbrev W5 (c : Dev nD) (o : Buf (Elt F) ((c : Thread nD τ).loc main_v4)) : Valuation τ sig (Elt F) :=
  StableHlo.after hostOps2 (W4 m c o)

theorem W2_arr (c : Dev nD) (w : Fin cfg0.W) :
    W2 m c (Proc.devRef .tc (Pipeline.arrRef spec0 w)) = (dat0 (Ve1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
theorem W4_arr (c : Dev nD) (o) (w : Fin cfg1.W) :
    W4 m c o (Proc.devRef .tc (Pipeline.arrRef spec1 w)) = F1 m c o w := by
  unfold W4; exact Pipeline.withArrays_arr spec1 launch1.win.arr_inj c _ _ w
theorem W4_of_ne (c : Dev nD) (o) (b : Ref sig .tc) (hb : ∀ w, Pipeline.arrRef spec1 w ≠ b) :
    W4 m c o (Proc.devRef .tc b) = W3 m c (Proc.devRef .tc b) := by
  unfold W4; exact Pipeline.withArrays_of_ne spec1 c _ _ b hb

/-! ## The calls' data, exact and read relationally -/

/-- Both calls' data, each at its entry contents. -/
def pdats : (p : Fin 2) → (c : Dev nD) → Dat τ (Elt F) Unit ℕ (UR sig nD τ) ℕ (Pipeline.pin (pcfgs (F := F)) adm p) c
  | ⟨0, _⟩ => fun c => dat0 (Ve1 m) c
  | ⟨1, _⟩ => fun c => dat1 (Ve3 m) c

variable (fgt1 : Fin cfg1.W → Bool)

/-- The same read relationally: the first call's exactly, the second call's with the windows `fgt1` marks unnamed. -/
def rdats : (p : Fin 2) → (c : Dev nD) → RDat τ (Elt F) Unit ℕ (UR sig nD τ) ℕ (Pipeline.pin (pcfgs (F := F)) adm p) c
  | ⟨0, _⟩ => fun c => (dat0 (Ve1 m) c).toR
  | ⟨1, _⟩ => fun c => (dat1 (Ve3 m) c).toRForget fgt1

abbrev L0 : GSem nD τ sig → Finset Unit := fun _ => ∅
abbrev lv0 : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- What the result array may hold after the second call. -/
abbrev PO (c : Dev nD) (o : Buf (Elt F) ((c : Thread nD τ).loc main_v4)) : Prop :=
  ((dat1 (Ve3 m) c).toRForget fgt1).ArrAt 2 cfg1.N o

theorem hF0 (c : Dev nD) (w : Fin cfg0.W) : (dat0 (Ve1 m) c).arrAt w cfg0.N = W2 m c (Pipeline.arrRef spec0 w) :=
  (W2_arr m c w).symm
theorem hrest0 (c : Dev nD) : ∀ b : Ref sig .tc, b ∉ Finset.univ.image (Pipeline.arrRef spec0) → W2 m c b = V1 m c b :=
  fun b hb => W2_of_ne m c b fun w e => hb (Finset.mem_image.mpr ⟨w, Finset.mem_univ _, e⟩)
theorem hF1 (c : Dev nD) (o) (w : Fin cfg1.W) : F1 m c o w = W4 m c o (Pipeline.arrRef spec1 w) :=
  (W4_arr m c o w).symm
theorem hrest1 (c : Dev nD) (o) : ∀ b : Ref sig .tc, b ∉ Finset.univ.image (Pipeline.arrRef spec1) → W4 m c o b = W3 m c b :=
  fun b hb => W4_of_ne m c o b fun w e => hb (Finset.mem_image.mpr ⟨w, Finset.mem_univ _, e⟩)

/-! ## The calls as segments -/

section Segs

variable (hb0 : ∀ c : Dev nD, BodyObligation (dat0 (F := F) (Ve1 m) c) (defs₀ (F := F)) Variants.none () Set.univ)
variable (hb1 : ∀ c : Dev nD, BodyObligationLoose (dat1 (F := F) (Ve3 m) c) (defs₀ (F := F)) Variants.none () Set.univ fgt1)

set_option backward.isDefEq.respectTransparency.types false in
/-- The first call: entered from every unscoped buffer at the contents after the first two reshapes, left with the
    weight array at what the write-backs leave. -/
def reg0 : Pipeline.RDat.RegionSeg (pcfgs (F := F)) adm (rdats m fgt1) () defs₀ Variants.none L0 lv0 0 where
  win := launch0.win.to₀
  block_pos := launch0.block_pos
  stage_whole := launch0.stage_whole
  K := PEmpty
  osem k := k.elim
  ho := Pipeline.OwnSemFacts.none _
  hbody c := (hb0 c).loose.toR
  hwaits := Pipeline.RDat.hwaits_of_owed_zero _ _ _ _ L0 lv0 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.RDat.arrays_of_unscopedBufs (p := 0) (pcfgs (F := F)) adm (rdats m fgt1) launch0.win launch0.arr_whole c
      ((rdats m fgt1 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (fun b => W2 m c b) ((pdats m 0 c).arrAt · cfg0.N) (hF0 m c) (hrest0 m c)
    rw [Pipeline.unscopedBufs_held] at hjoin
    rw [show (rdats m fgt1 0 c).arraysAt (Pipeline.pin (pcfgs (F := F)) adm 0).N = ((pdats m 0 c).arrays ((pdats m 0 c).arrAt · cfg0.N) : sProp 𝕄)
      from (dat0 (Ve1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second call: entered from every unscoped buffer at the contents after the reshape of x, left with the result
    array at some contents its write-backs may leave. -/
def reg1 : Pipeline.RDat.RegionSeg (pcfgs (F := F)) adm (rdats m fgt1) () defs₀ Variants.none L0 lv0 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L0 lv0 1 fun _ _ => rfl
  pre c := iprop(StableHlo.held (c : Thread nD τ) (Pipeline.ucRefs τ sig) (W3 m c) ∗ R c)
  post c := iprop(∃ o, ⌜PO m fgt1 c o⌝ ∗ StableHlo.held (c : Thread nD τ) (Pipeline.ucRefs τ sig) (W4 m c o) ∗ R c)
  X c := iprop(∃ r, prngReg c r)
  Y c := iprop(∃ r, prngReg c r)
  Z c := Pipeline.unscopedRest (Ix := Unit) (Name := ℕ) (U := UR sig nD τ) (Lvl := ℕ) spec1 c (Ve3 m c)
  hentry c := by
    rw [Pipeline.ownSems0_none]
    have hsplit := Pipeline.RDat.arrays_of_unscopedBufs (p := 1) (pcfgs (F := F)) adm (rdats m fgt1) launch1.win launch1.arr_whole c
      ((rdats m fgt1 1 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%G0, %h0, H0⟩, ⟨%G1, %h1, H1⟩, ⟨%G2, %h2, H2⟩⟩, HO, HY, Hrest⟩
    have e0 : G0 = Ve3 m c main_v3 := by
      rw [(rdats m fgt1 1 c).ArrAt_in 0 rfl] at h0; exact h0
    have e1 : G1 = Ve3 m c main_v2 := by
      rw [(rdats m fgt1 1 c).ArrAt_in 1 rfl] at h1; exact h1
    subst e0; subst e1
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve3 m c) (fun b => W4 m c G2 b) (F1 m c G2) (hF1 m c G2) (hrest1 m c G2)
    rw [Pipeline.unscopedBufs_held] at hjoin
    imodintro
    iexists G2
    isplitr; · ipureintro; exact h2
    isplitl [H0 H1 H2 Hrest]
    · iapply hjoin
      isplitr [Hrest]
      · unfold Pipeline.Dat.arrays; rw [bigSep_W1]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

end Segs

/-! ## The last reshape, entered from a result array at some contents -/

section Launch

variable (hb0 : ∀ c : Dev nD, BodyObligation (dat0 (F := F) (Ve1 m) c) (defs₀ (F := F)) Variants.none () Set.univ)
variable (hb1 : ∀ c : Dev nD, BodyObligationLoose (dat1 (F := F) (Ve3 m) c) (defs₀ (F := F)) Variants.none () Set.univ fgt1)

/-- A host stretch over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Ix := Unit) (Name := ℕ) (U := UR sig nD τ) (Lvl := ℕ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last reshape as a segment: whatever the result array holds, it runs to the reshaped copy of it. -/
def segT : Pipeline.HostSeg (Ix := Unit) (Name := ℕ) (U := UR sig nD τ) (Lvl := ℕ) (pcfgs (F := F)) defs₀ Variants.none L0 lv0 where
  prog := StableHlo.seq hostOps2
  pre c := iprop(∃ o, ⌜PO m fgt1 c o⌝ ∗ StableHlo.held (c : Thread nD τ) (Pipeline.ucRefs τ sig) (W4 m c o) ∗ R c)
  post c := iprop(∃ o, ⌜PO m fgt1 c o⌝ ∗ StableHlo.held (c : Thread nD τ) (Pipeline.ucRefs τ sig) (W5 m c o) ∗ R c)
  run c {β} k K := by
    iintro ⟨Hk, Hbd, ⟨%o, %ho, Hh, HR⟩, #Hla⟩
    have hrun := (hseg hostOps2 hostOps2_sub hostOps2_fresh (fun c => W4 m c o)).run c k K
    dsimp only [hseg, Pipeline.HostSeg.ofOps] at hrun
    iapply hrun
    isplitl [Hk]
    · iintro ⟨Hbd, Hh, HR⟩
      iapply Hk
      isplitl [Hbd]; · iexact Hbd
      iexists o
      isplitr; · ipureintro; exact ho
      isplitl [Hh]; · iexact Hh
      iexact HR
    isplitl [Hbd]; · iexact Hbd
    isplitl [Hh HR]
    · isplitl [Hh]; · iexact Hh
      iexact HR
    iexact Hla

/-- @main's five items in order. -/
abbrev segs (c : Dev nD) : List (Pipeline.RDat.Seg (pcfgs (F := F)) adm (rdats m fgt1) () defs₀ Variants.none L0 lv0) :=
  [ .host (hseg hostOps0 hostOps0_sub hostOps0_fresh (V0 m)),
    .region (reg0 m fgt1 hb0),
    .host (hseg hostOps1 hostOps1_sub hostOps1_fresh (W2 m)),
    .region (reg1 m fgt1 hb1),
    .host (segT m fgt1) ]

/-- The last thread state beside the core owing nothing. -/
abbrev Tn (c : Dev nD) : sProp 𝕄 :=
  iprop(∃ o, ⌜PO m fgt1 c o⌝ ∗ StableHlo.held (c : Thread nD τ) (Pipeline.ucRefs τ sig) (W5 m c o) ∗ ∃ r, prngReg c r)

include hb0 hb1 in
set_option backward.isDefEq.respectTransparency.types false in
/-- THE RUN. From any memory with zero counters every weakly fair execution of @main terminates, nothing faulting, and
    in the final state every unscoped buffer of the TensorCore holds the last valuation, for some contents `o` the
    second call's write-backs may leave in the result array. -/
theorem run_main : θ_run defs (onTc (τ := τ) (main (F := F))) ⟨m, fun _ => 0, ρ⟩ (fun r => ∀ c : Dev nD,
      ∃ o, PO m fgt1 c o ∧ ∀ b ∈ Pipeline.ucRefs τ sig, r.2.mem (((c : Thread nD τ)).1, b) = W5 m c o b) := by
  refine Pipeline.RDat.θ_run_regions_kit_dev (pcfgs (F := F)) adm (rdats m fgt1) () cellOf_inj emb₁ defs₀ Variants.none L0 lv0 m ρ main
    (fun c => segs m fgt1 hb0 hb1 c)
    (fun c Q => by
      rewrite [main_chain c, Pipeline.RDat.Seg.run_eq_chain,
        show (segs m fgt1 hb0 hb1 c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m fgt1)
    (hch := fun c => ⟨.rfl, .rfl, .rfl, .rfl, .rfl, ?_⟩)
    (hinit := ?_)
    (QY := fun c s => ∃ o, PO m fgt1 c o ∧ ∀ b ∈ Pipeline.ucRefs τ sig, s.mem (((c : Thread nD τ)).1, b) = W5 m c o b)
    (hfin := fun c s' => ?_) (hQ := fun _ h => h)
  · -- the last reshape's thread state is the last one beside the core owing nothing
    show iprop(∃ o, ⌜PO m fgt1 c o⌝ ∗ StableHlo.held (c : Thread nD τ) (Pipeline.ucRefs τ sig) (W5 m c o) ∗ R c)
      ⊢ iprop(Tn m fgt1 c ∗ ∃ W, owes (c : Thread nD τ) (0 : CellTallies nD τ sig Unit) W)
    iintro ⟨%o, %ho, Hh, Hp, HO⟩
    isplitr [HO]
    · iexists o
      isplitr; · ipureintro; exact ho
      isplitl [Hh]; · iexact Hh
      iexact Hp
    iexact HO
  · -- the launch
    refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨%o, %ho, Hh, -⟩, HSI⟩
    unfold StableHlo.held
    ihave Hr := (pointsTo_read_all (Pipeline.ucRefs τ sig) (fun b => (((c : Thread nD τ)).1, b)) (W5 m c o) s') $$ [Hh HSI]
    · isplitl [Hh] <;> iassumption
    icases Hr with ⟨%h, HSI⟩
    imodintro
    isplitr
    · ipureintro; exact ⟨o, ho, h⟩
    · iexact HSI

end Launch

end Cert.KernelIdeal.Hand

end
-- ==== Proof.KArgs.lean ====
/-
  No item of @main writes an argument array: a host reshape writes its own result, the first call's only output is the
  weight array, the second's the result array. So whatever the calls leave, each argument ends as launched.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.KLaunch
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

theorem W5_of (c : Dev nD) (o) (r : Ref sig .tc) (h : r ∉ hostOps2_W) : W5 m c o (Proc.devRef .tc r) = W4 m c o (Proc.devRef .tc r) :=
  StableHlo.after_of_writes_sub hostOps2 _ hostOps2_writes h
theorem W3_of (c : Dev nD) (r : Ref sig .tc) (h : r ∉ hostOps1_W) : W3 m c (Proc.devRef .tc r) = W2 m c (Proc.devRef .tc r) :=
  StableHlo.after_of_writes_sub hostOps1 _ hostOps1_writes h

theorem W5_arg0 (c : Dev nD) (o) : W5 m c o (Proc.devRef .tc main_arg0) = m ((c : Thread nD τ).loc main_arg0) :=
  (W5_of m c o main_arg0 (by decide)).trans <| (W4_of_ne m c o main_arg0 (by decide)).trans <| (W3_of m c main_arg0 (by decide)).trans <|
    (W2_of_ne m c main_arg0 (by decide)).trans <| (V1_of m c main_arg0 (by decide)).trans rfl
theorem W5_arg1 (c : Dev nD) (o) : W5 m c o (Proc.devRef .tc main_arg1) = m ((c : Thread nD τ).loc main_arg1) :=
  (W5_of m c o main_arg1 (by decide)).trans <| (W4_of_ne m c o main_arg1 (by decide)).trans <| (W3_of m c main_arg1 (by decide)).trans <|
    (W2_arr m c 0).trans <| ((dat0 (Ve1 m) c).arrAt_in 0 rfl _).trans <| (A_eq0 (Ve1 m) c 0).trans <| (V1_of m c main_arg1 (by decide)).trans rfl
theorem W5_arg2 (c : Dev nD) (o) : W5 m c o (Proc.devRef .tc main_arg2) = m ((c : Thread nD τ).loc main_arg2) :=
  (W5_of m c o main_arg2 (by decide)).trans <| (W4_of_ne m c o main_arg2 (by decide)).trans <| (W3_of m c main_arg2 (by decide)).trans <|
    (W2_of_ne m c main_arg2 (by decide)).trans <| (V1_of m c main_arg2 (by decide)).trans rfl
theorem W5_arg3 (c : Dev nD) (o) : W5 m c o (Proc.devRef .tc main_arg3) = m ((c : Thread nD τ).loc main_arg3) :=
  (W5_of m c o main_arg3 (by decide)).trans <| (W4_of_ne m c o main_arg3 (by decide)).trans <| (W3_of m c main_arg3 (by decide)).trans <|
    (W2_of_ne m c main_arg3 (by decide)).trans <| (V1_of m c main_arg3 (by decide)).trans rfl

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME from the run: every argument array ends as launched. -/
theorem frame_of_run (ρ : Dev nD → PrngReg) (fgt1 : Fin cfg1.W → Bool)
    (hb0 : ∀ c : Dev nD, BodyObligation (dat0 (F := F) (Ve1 m) c) (defs₀ (F := F)) Variants.none () Set.univ)
    (hb1 : ∀ c : Dev nD, BodyObligationLoose (dat1 (F := F) (Ve3 m) c) (defs₀ (F := F)) Variants.none () Set.univ fgt1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨o, -, hm⟩ := h c
    exact ⟨(hm _ (mem_uc main_arg0 (by decide))).trans (W5_arg0 m c o),
      (hm _ (mem_uc main_arg1 (by decide))).trans (W5_arg1 m c o),
      (hm _ (mem_uc main_arg2 (by decide))).trans (W5_arg2 m c o),
      (hm _ (mem_uc main_arg3 (by decide))).trans (W5_arg3 m c o)⟩) (run_main m ρ fgt1 hb0 hb1)

end Cert.KernelIdeal.Hand

end
-- ==== Proof.K0Body.lean ====
/-
  The dequantisation call's body, run at a generic tile: three whole loads, the tile computed, one whole store.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K0Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers when the body is called -/

/-- The packed words' current buffer holds its block of the packed weight at every tile: the window is fetched whole
    (it is not cut) and the body leaves its buffer as it finds it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same of the scales' buffer. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The same of the zero points' buffer. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's one store covers the output tile -/

/-- The one stored rectangle is the whole tile, so every index of the tile lies in it. -/
theorem cover0_3 (p0 : Vec F S4096x256 .bf16) (y : S4096x256.Idx) :
    ∃ pc ∈ ([⟨r0w, p0⟩] : List (View.Piece (Elt F) S4096x256 .bf16)), y ∈ pc.1.set :=
  View.cover_of_tiled [⟨r0w, p0⟩] S4096x256.size (by rfl) y

/-! ## A whole load reads the buffer -/

/-- The two zero offsets are the zero function. -/
theorem zeros2 : (![0, 0] : Fin 2 → Nat) = fun _ => 0 := funext fun a => by fin_cases a <;> rfl

/-- A load of a whole 512×256 buffer of words reads its contents. -/
theorem readAt_whole_S512x256 {κ : Kind} {sp : Space} (v : View sig κ sp S512x256 .i32) (f : v.ty.Contents (Elt F)) :
    v.readAt (Elt F) (Rect.unit (s := S512x256) ![0, 0] S512x256.size inb_S512x256_S512x256_0_0).toLoadRect f
      = v.read (Elt F) f :=
  (View.readAt_eq_ld v f _).trans (View.ld_unit_zero (S := S512x256) zeros2 _ _)

/-- A load of a whole 1×256 row of floats reads its contents. -/
theorem readAt_whole_S1x256 {κ : Kind} {sp : Space} (v : View sig κ sp S1x256 .f32) (f : v.ty.Contents (Elt F)) :
    v.readAt (Elt F) (Rect.unit (s := S1x256) ![0, 0] S1x256.size inb_S1x256_S1x256_0_0).toLoadRect f
      = v.read (Elt F) f :=
  (View.readAt_eq_ld v f _).trans (View.ld_unit_zero (S := S1x256) zeros2 _ _)

/-! ## The body's triple -/

set_option maxHeartbeats 1000000 in
/-- The body on whole buffers, the three inputs' reading x0, x1, x2 and the output's holding anything, runs to the
    continuation with the inputs' unchanged and the output's at the dequantised tile of x0, x1, x2: three whole loads,
    one whole load of the output buffer whose value is not used, one whole store. -/
theorem sound_kernel0 (c : Dev nD) (E : Set ℕ) (i : grid0.Coords)
    (arg1 : Memref sig .tc .vmem S512x256 .i32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S4096x256 .bf16) (harg4 : arg4.IsWhole)
    (x0 : Vec F S512x256 .i32) (x1 : Vec F S1x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover0_3 _)).trans ?_
  unfold out0_3
  rw [readAt_whole_S512x256, readAt_whole_S1x256, readAt_whole_S1x256]

/-! ## The obligation at a generic tile -/

/-- What the body is called with at tile t: the invariant, the core's debts, and the four windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any tile: the inputs' buffers hold their blocks, so the body's triple applies; the invariant and the
    core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation for the dequantisation call, at every tile. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.K1Kernel.lean ====
/-
  The matrix-product call's body on any whole staging buffers: at a point whose reduction step is 0 it zeroes the output
  block first; then it adds the product of the x block and the weight block to what the output block holds.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinates: the reduction step is 0. -/
abbrev cond1 (i : grid1.Coords) : Prop :=
  (Scalar.cmpi .ne (Scalar.extui (Scalar.cmpi .eq (BitVec.ofNat 32 (i 2).val) 0#32)) 0#32) = 1#1

/-- It holds exactly at the points that are multiples of 8 — decided over the grid. -/
theorem hcond1 : ∀ t : Fin cfg1.N, cond1 (grid1.coords t) ↔ t.val % 8 = 0 :=
  (by decide +kernel : ∀ t : Fin grid1.N, cond1 (grid1.coords t) ↔ t.val % 8 = 0)

/-- The whole-block rectangle's offsets are the zero offsets. -/
theorem offsets_zero : (![0, 0] : Fin 2 → Nat) = fun _ => 0 := funext fun a => by fin_cases a <;> rfl

set_option maxHeartbeats 1000000 in
/-- At a point whose reduction step is 0: the output block is zeroed, read back, and the product added to the zero
    block. -/
theorem sound_kernel1_reset (c : Dev nD) (E : Set ℕ) (i : grid1.Coords)
    (arg3 : Memref sig .tc .vmem S1024x512 .f32) (harg3 : arg3.IsWhole)
    (arg4 : Memref sig .tc .vmem S512x1024 .bf16) (harg4 : arg4.IsWhole)
    (arg5 : Memref sig .tc .vmem S1024x1024 .f32) (harg5 : arg5.IsWhole)
    (x0 : Vec F S1024x512 .f32) (x1 : Vec F S512x1024 .bf16) (y : Vec F S1024x1024 .f32) (K : PUnit → sProp 𝕄) (hc : cond1 i) :
    iprop(owns (c : Thread nD τ) arg3 fullShare x0 ∗ owns (c : Thread nD τ) arg4 fullShare x1 ∗ owns (c : Thread nD τ) arg5 fullShare y
        ∗ (iprop(owns (c : Thread nD τ) arg3 fullShare x0 ∗ owns (c : Thread nD τ) arg4 fullShare x1
              ∗ owns (c : Thread nD τ) arg5 fullShare (k1_pay2 x0 (k1_pay1 (F := F)) x1)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  sl_unfold_words
  refine (View.read_writes_eq_canon _ _ _ ?_).trans ?_
  · intro j; exact ⟨_, List.mem_cons_self .., View.mem_set_unit_zero offsets_zero inb_S1024x1024_S1024x1024_0_0 j⟩
  rw [View.canon_cons_unit_zero (S := S1024x1024) offsets_zero]
  simp only [View.readAt_eq_ld, harg3.read_unread, harg4.read_unread, View.ld_unit_zero (S := S1024x512) offsets_zero,
    View.ld_unit_zero (S := S512x1024) offsets_zero, View.readCov_unit_zero (S := S1024x1024) _ offsets_zero]

set_option maxHeartbeats 1000000 in
/-- At a later step: the product is added to what the output block holds. -/
theorem sound_kernel1_acc (c : Dev nD) (E : Set ℕ) (i : grid1.Coords)
    (arg3 : Memref sig .tc .vmem S1024x512 .f32) (harg3 : arg3.IsWhole)
    (arg4 : Memref sig .tc .vmem S512x1024 .bf16) (harg4 : arg4.IsWhole)
    (arg5 : Memref sig .tc .vmem S1024x1024 .f32) (harg5 : arg5.IsWhole)
    (x0 : Vec F S1024x512 .f32) (x1 : Vec F S512x1024 .bf16) (y : Vec F S1024x1024 .f32) (K : PUnit → sProp 𝕄) (hc : ¬cond1 i) :
    iprop(owns (c : Thread nD τ) arg3 fullShare x0 ∗ owns (c : Thread nD τ) arg4 fullShare x1 ∗ owns (c : Thread nD τ) arg5 fullShare y
        ∗ (iprop(owns (c : Thread nD τ) arg3 fullShare x0 ∗ owns (c : Thread nD τ) arg4 fullShare x1
              ∗ owns (c : Thread nD τ) arg5 fullShare (k1_pay2 x0 y x1)) -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  sl_unfold_words
  refine (View.read_writes_eq_canon _ _ _ ?_).trans ?_
  · intro j; exact ⟨_, List.mem_singleton_self _, View.mem_set_unit_zero offsets_zero inb_S1024x1024_S1024x1024_0_0 j⟩
  rw [View.canon_unit_zero (S := S1024x1024) offsets_zero]
  simp only [View.readAt_eq_ld, harg3.read_unread, harg4.read_unread, harg5.read_unread,
    View.ld_unit_zero (S := S1024x512) offsets_zero, View.ld_unit_zero (S := S512x1024) offsets_zero, View.ld_unit_zero (S := S1024x1024) offsets_zero]

open Classical in
/-- The body on whole staging buffers holding `x0` (x block), `x1` (weight block) and `y` (output block): it runs to
    the continuation with the inputs unchanged and the output block at the product added to the zero block (step 0)
    or to `y` (a later step). -/
theorem sound_kernel1 (c : Dev nD) (E : Set ℕ) (i : grid1.Coords)
    (arg3 : Memref sig .tc .vmem S1024x512 .f32) (harg3 : arg3.IsWhole)
    (arg4 : Memref sig .tc .vmem S512x1024 .bf16) (harg4 : arg4.IsWhole)
    (arg5 : Memref sig .tc .vmem S1024x1024 .f32) (harg5 : arg5.IsWhole)
    (x0 : Vec F S1024x512 .f32) (x1 : Vec F S512x1024 .bf16) (y : Vec F S1024x1024 .f32) (K : PUnit → sProp 𝕄) :
    iprop(owns (c : Thread nD τ) arg3 fullShare x0 ∗ owns (c : Thread nD τ) arg4 fullShare x1 ∗ owns (c : Thread nD τ) arg5 fullShare y
        ∗ (iprop(owns (c : Thread nD τ) arg3 fullShare x0 ∗ owns (c : Thread nD τ) arg4 fullShare x1
              ∗ owns (c : Thread nD τ) arg5 fullShare (k1_pay2 x0 (if cond1 i then k1_pay1 (F := F) else y) x1)) -∗ K ⟨⟩))
      ⊢ wp frame (wpE (defs₀ (F := F)) Variants.none c none) E (cc1__matmul_kernel i arg3 harg3 arg4 harg4 arg5 harg5) K := by
  by_cases hc : cond1 i
  · rw [if_pos hc]; exact sound_kernel1_reset c E i arg3 harg3 arg4 harg4 arg5 harg5 x0 x1 y K hc
  · rw [if_neg hc]; exact sound_kernel1_acc c E i arg3 harg3 arg4 harg4 arg5 harg5 x0 x1 y K hc

end Cert.KernelIdeal.Hand

end
-- ==== Proof.K1Body.lean ====
/-
  The matrix-product call's body, run at a generic grid point.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K1Defs
import proofs.«414396_j90658169684410_3_alg».proof.Proof.K1Kernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows a frame proof leaves unnamed: the output block only. -/
abbrev fgtOut : Fin cfg1.W → Bool := fun w => match w with | ⟨0, _⟩ => false | ⟨1, _⟩ => false | ⟨2, _⟩ => true

/-- The x block's staging buffer holds its block at every point, whatever it held before the fetch: the window is
    never cut, so the fetch fills all of it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The weight block's staging buffer, fetched at every point, holds the block's part inside the array on the columns
    the fetch moves, and what it held before (`d`) past them. -/
theorem before1_1 (c : Dev nD) (t : Fin cfg1.N) (d) :
    (dat1 V c).before 1 t d = win1_1.fill (grid1.coords t) d (iblk1 V c 1 t) := by
  unfold Dat.before; rw [if_pos (fetch1_1 t)]; rfl

/-- The obligation with the output block unnamed, at any float instance. -/
theorem body_obligation1_fgt (c : Dev nD) :
    BodyObligationLoose (dat1 (F := F) V c) (defs₀ (F := F)) Variants.none () Set.univ fgtOut := by
  intro t
  rw [bigSep_W1, bigSep_W1]
  -- no point is idle; the x window is stated whole, the weight window on the columns its transfers move, the output
  -- block is handed over and taken back at contents nothing names
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%X, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (iblk1 V c 0 t) (win1_1.fill (grid1.coords t) d1 (iblk1 V c 1 t)) X _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · rw [after1_0]; iexact H0
  isplitl [H1]
  · -- the weight block's buffer still holds the fetched block over `d1`; on the moved columns that is the block,
    -- which is all the filled-out block `wblk1` says there
    iexists d1
    have hcut : win1_1.cut (grid1.coords t) ((dat1 V c).after 1 t) = iblk1 V c 1 t := by
      rw [after1_1]; unfold wblk1; exact win1_1.cut_fill _ _ _
    change _ ⊢ owns (c : Thread nD τ) (stage1_1 (cfg1.slots t 1)) fullShare
      (win1_1.fill (grid1.coords t) d1 (win1_1.cut (grid1.coords t) ((dat1 V c).after 1 t)))
    rw [hcut]; try iexact H1
  · iexists _; iexact H2

end Cert.KernelIdeal.Hand

end
-- ==== Proof.K1BodyI.lean ====
/-
  The matrix-product call's body at the extended reals, every window named: an entry of the product depends on its own
  column of the weight block only, so the columns past the array's end do not reach the part written back.

  At the extended reals the body's result at entry (i, j) of the output block is the block's entry there (the zero
  block's at a step 0) plus the sum over k of x(i, k) · w(k, j). The eleventh column tile overhangs the array: of the
  weight block and of the output block only the leading 768 columns are moved, and past them the buffers hold contents
  nothing names. Both blocks are cut at the same column, so an entry among the moved columns of the output reads moved
  columns of the weight block only, and, along a run of reduction steps, the moved entry the step before left. Hence
  the moved part of what the body leaves is the moved part of the accumulation computed with any fillers.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K1Defs
import proofs.«414396_j90658169684410_3_alg».proof.Proof.K1Kernel
import proofs.«414396_j90658169684410_3_alg».proof.Proof.K1Body
import Idealize.ShloMosaic.PureOps.Ideal
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- On the weight operand's column axis the product reads the output entry's own column. -/
theorem rhsCol (j : S1024x1024.Idx) (k : dot_S1024x512_S512x1024_S1024x1024_1_0_0_1_n_n.contr.Idx) :
    (dot_S1024x512_S512x1024_S1024x1024_1_0_0_1_n_n.rhsIdx j k 1 : ℕ) = j 1 := by
  simp [DotDims.rhsIdx, dot_S1024x512_S512x1024_S1024x1024_1_0_0_1_n_n]; rfl

/-- COLUMN LOCALITY. At the extended reals the body's result at an entry is the output block's entry there plus the
    sum over the contracted axis of the x block's row times the weight block's column OF THAT ENTRY: two output blocks
    that agree at the entry and two weight blocks that agree on the entry's column give the same result there. -/
theorem pay2_col (x : Vec Ideal S1024x512 .f32) (y y' : Vec Ideal S1024x1024 .f32) (w w' : Vec Ideal S512x1024 .bf16)
    (j : S1024x1024.Idx) (hy : y j = y' j) (hw : ∀ i : S512x1024.Idx, (i 1).val = (j 1).val → w i = w' i) :
    k1_pay2 (F := Ideal) x y w j = k1_pay2 (F := Ideal) x y' w' j := by
  unfold k1_pay2
  refine (ValueIdx.addf_apply _ _ j).trans ?_
  refine Eq.trans ?_ (ValueIdx.addf_apply _ _ j).symm
  refine congrArg₂ (· + ·) ?_ ?_
  · exact (congrFun (shapeCast_self y _) j).trans (hy.trans (congrFun (shapeCast_self y' _) j).symm)
  · refine (Ideal.matmul_apply _ _ _ _ _ j).trans ?_
    refine Eq.trans ?_ (Ideal.matmul_apply _ _ _ _ _ j).symm
    refine congrArg (_ + ·) (Finset.sum_congr rfl fun k _ => ?_)
    refine congrArg₂ (fun a b : EReal => a * b) rfl ?_
    exact (congrFun (shapeCast_self w _) _).trans ((hw _ (rhsCol j k)).trans (congrFun (shapeCast_self w' _) _).symm)

/-- The weight's and the output's blocks are cut alike along the columns, and the weight's block is never cut along
    its rows: decided over the grid. -/
theorem cuts_agree : ∀ t : Fin cfg1.N, win1_1.xsize (grid1.coords t) 0 = 512
    ∧ win1_1.xsize (grid1.coords t) 1 = win1_2.xsize (grid1.coords t) 1 :=
  (by decide +kernel : ∀ t : Fin grid1.N, win1_1.xsize (grid1.coords t) 0 = 512
    ∧ win1_1.xsize (grid1.coords t) 1 = win1_2.xsize (grid1.coords t) 1)

/-- Within one run of eight reduction steps the output's block does not move, so it is cut alike at a point and at
    the point before: decided over the grid. -/
theorem cut_prev : ∀ t : Fin cfg1.N, ¬t.val % 8 = 0 → ∀ a : Fin 2,
    win1_2.xsize (grid1.coords ⟨t.val - 1, Nat.lt_of_le_of_lt (Nat.sub_le _ _) t.isLt⟩) a = win1_2.xsize (grid1.coords t) a :=
  (by decide +kernel : ∀ t : Fin grid1.N, ¬t.val % 8 = 0 → ∀ a : Fin 2,
    win1_2.xsize (grid1.coords ⟨t.val - 1, Nat.lt_of_le_of_lt (Nat.sub_le _ _) t.isLt⟩) a = win1_2.xsize (grid1.coords t) a)

/-- On the part a transfer moves, a block filled with a cut block is the cut block, whatever filled the rest. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- On the part a transfer moves, a block filled with the cut of contents `X` is `X`. -/
theorem fill_cut_of_moved {G : Pipeline.Grid} (w : Window sig G) {α : Type} (i : G.Coords) (d X : w.block.Idx → α)
    (j : w.block.Idx) (h : w.moved i j = true) : w.fill i d (w.cut i X) j = X j := by
  unfold Window.fill; rw [dif_pos h]

/-- The moved part of the body's result depends on the moved part of the output block it adds to and on the cut
    weight block only: not on what fills either buffer past the cut. -/
theorem cut_pay2 (i : grid1.Coords) (h0 : win1_1.xsize i 0 = 512) (h1 : win1_1.xsize i 1 = win1_2.xsize i 1)
    (x : Vec Ideal S1024x512 .f32) (y y' : Vec Ideal S1024x1024 .f32)
    (g : (win1_1.xblock i).Idx → Elt Ideal .bf16) (d d' : Vec Ideal S512x1024 .bf16)
    (hy : win1_2.cut i y = win1_2.cut i y') :
    win1_2.cut i (k1_pay2 (F := Ideal) x y (win1_1.fill i d g))
      = win1_2.cut i (k1_pay2 (F := Ideal) x y' (win1_1.fill i d' g)) := by
  funext idx
  show k1_pay2 (F := Ideal) x y (win1_1.fill i d g) (win1_2.xinj i idx)
    = k1_pay2 (F := Ideal) x y' (win1_1.fill i d' g) (win1_2.xinj i idx)
  refine pay2_col x y y' _ _ (win1_2.xinj i idx) (congrFun hy idx) fun k hk => ?_
  refine fill_eq_of_moved win1_1 i d d' g k ((win1_1.moved_iff i k).mpr fun a => ?_)
  match a with
  | ⟨0, _⟩ =>
    show (k 0).val < win1_1.xsize i 0
    rw [h0]; exact (k 0).isLt
  | ⟨1, _⟩ =>
    show (k 1).val < win1_1.xsize i 1
    rw [h1, hk]; exact (idx 1).isLt

variable (V : (c : Dev nD) → (b : Ref sig .tc) → Buf (Elt Ideal) ((c : Thread nD τ).loc b))

/-! ## What the body finds in each window's buffer -/

/-- The x block, just fetched (never cut). -/
theorem found1_0 (c : Dev nD) (t : Fin cfg1.N) (d) : (dat1 V c).before 0 t d = xblk1 V c t := by
  rw [Dat.before_fetched _ 0 t (fetch1_0 t) d]
  unfold Dat.fetched Dat.blockOf; dsimp only [dat1]; rfl

/-- The weight block, just fetched: the part inside the array, and past it whatever the buffer held. -/
theorem found1_1 (c : Dev nD) (t : Fin cfg1.N) (d) :
    (dat1 V c).before 1 t d = win1_1.fill (grid1.coords t) d (iblk1 V c 1 t) := by
  rw [Dat.before_fetched _ 1 t (fetch1_1 t) d]
  unfold Dat.fetched Dat.blockOf; dsimp only [dat1]; rfl

/-- The output block at a step 0: a fresh buffer. -/
theorem found1_2_reset (c : Dev nD) (t : Fin cfg1.N) (h : t.val % 8 = 0) (d) : (dat1 V c).before 2 t d = d := by
  refine Dat.before_out_reset _ 2 rfl t ?_ d
  by_cases h0 : t.val = 0
  · exact .inl h0
  · exact .inr ⟨h0, (flush1_2 _).mpr (by show (t.val - 1) % 8 = 7; omega)⟩

/-- The output block at a later step: what the step before left on the moved part, anything past it. -/
theorem found1_2_acc (c : Dev nD) (t : Fin cfg1.N) (h : ¬t.val % 8 = 0) (d) :
    (dat1 V c).before 2 t d
      = win1_2.fill (grid1.coords ⟨t.val - 1, Nat.lt_of_le_of_lt (Nat.sub_le _ _) t.isLt⟩) d
          (win1_2.cut (grid1.coords ⟨t.val - 1, Nat.lt_of_le_of_lt (Nat.sub_le _ _) t.isLt⟩)
            (acc1 V c (t.val - 1) (Nat.lt_of_le_of_lt (Nat.sub_le _ _) t.isLt))) := by
  have hfl : (cfg1.win 2).flush ⟨t.val - 1, Nat.lt_of_le_of_lt (Nat.sub_le _ _) t.isLt⟩ = false :=
    Bool.eq_false_iff.mpr fun hf => by
      have := (flush1_2 _).mp hf
      change (t.val - 1) % 8 = 7 at this
      omega
  rw [Dat.before_out_acc _ 2 rfl t (fun h0 => h (by rw [h0])) hfl (fun _ => rfl) d]
  unfold Dat.kept; dsimp only [dat1]

/-- The moved part of what the body leaves in the output block's buffer is the moved part of the accumulation the data
    names, whatever filled the weight's buffer (`d1`) and the output's (`d2`) past their cuts. -/
theorem cut_result (c : Dev nD) (t : Fin cfg1.N) (d1 : Vec Ideal S512x1024 .bf16) (d2 : Vec Ideal S1024x1024 .f32) :
    win1_2.cut (grid1.coords t)
        (k1_pay2 (F := Ideal) (xblk1 V c t)
          (if cond1 (grid1.coords t) then k1_pay1 (F := Ideal) else (dat1 V c).before 2 t d2)
          (win1_1.fill (grid1.coords t) d1 (iblk1 V c 1 t)))
      = win1_2.cut (grid1.coords t) (acc1 V c t.val t.isLt) := by
  by_cases h : t.val % 8 = 0
  · rw [if_pos ((hcond1 t).mpr h), acc1_reset V c t h]
    exact cut_pay2 (grid1.coords t) (cuts_agree t).1 (cuts_agree t).2 (xblk1 V c t) _ _ (iblk1 V c 1 t) d1 _ rfl
  · rw [if_neg (mt (hcond1 t).mp h), acc1_step V c t h, found1_2_acc V c t h d2]
    refine cut_pay2 (grid1.coords t) (cuts_agree t).1 (cuts_agree t).2 (xblk1 V c t) _ _ (iblk1 V c 1 t) d1 _ ?_
    funext idx
    exact fill_cut_of_moved win1_2 _ d2 _ (win1_2.xinj (grid1.coords t) idx)
      ((win1_2.moved_iff _ _).mpr fun a => Nat.lt_of_lt_of_eq (idx a).isLt (cut_prev t h a).symm)

/-- The obligation with every window named, at the extended reals. -/
theorem body_obligation1 (c : Dev nD) :
    BodyObligationLoose (dat1 (F := Ideal) V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [found1_0 V c t d0, found1_1 V c t d1]
  -- the weight block as the data names it, cut back, is the part inside the array
  have hw : win1_1.cut (grid1.coords t) (wblk1 V c t) = iblk1 V c 1 t := win1_1.cut_fill _ _ _
  iapply (sound_kernel1 (F := Ideal) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (xblk1 V c t) (win1_1.fill (grid1.coords t) d1 (iblk1 V c 1 t)) ((dat1 V c).before 2 t d2) _)
  isplitl [H0]
  · iexact H0
  isplitl [H1]
  · iexact H1
  isplitl [H2]
  · iexact H2
  iintro ⟨H0, H1, H2⟩
  isplitl [HΦ]
  · iexact HΦ
  isplitl [Ho]
  · iexact Ho
  isplitl [H0]
  · iexact H0
  isplitl [H1]
  · iexists d1
    change _ ⊢ owns (c : Thread nD τ) (win1_1.stage (cfg1.slots t 1)) fullShare
      (win1_1.fill (grid1.coords t) d1 (win1_1.cut (grid1.coords t) (wblk1 V c t)))
    rw [hw]
  · iexists k1_pay2 (F := Ideal) (xblk1 V c t)
      (if cond1 (grid1.coords t) then k1_pay1 (F := Ideal) else (dat1 V c).before 2 t d2)
      (win1_1.fill (grid1.coords t) d1 (iblk1 V c 1 t))
    change _ ⊢ owns (c : Thread nD τ) (win1_2.stage (cfg1.slots t 2)) fullShare
      (win1_2.fill (grid1.coords t) _ (win1_2.cut (grid1.coords t) (acc1 V c t.val t.isLt)))
    rw [win1_2.fill_congr_cut _ (cut_result V c t d1 d2)]

end Cert.KernelIdeal.Hand

end
-- ==== Proof.Spec.lean ====
/-
  What both programs compute, over the extended reals. The packed weight holds eight 4-bit fields per 32-bit word,
  the field for input channel k in word k div 8, bits 28 − 4·(k mod 8) and up; a weight is (field − zero point) · scale
  of its output channel; the result is x times the weight matrix, contracted over the 4096 input channels.
-/
import Idealize.ShloMosaic.PureOps.Ideal
import Idealize.ShloMosaic.Lib.ValueIdx

noncomputable section

open scoped BigOperators

namespace Cert.Spec

open Idealize.ShloMosaic Idealize.ShloMosaic.ValueIdx

/-- The 4-bit field of input channel `k`, output channel `o`, as a 32-bit word: the packed word of row `k / 8` shifted
    right (arithmetically) by `28 − 4·(k mod 8)` and masked with 15. -/
def nib (p : (⟨2, ![512, 11008]⟩ : Shape).Idx → BitVec 32) (k : Fin 4096) (o : Fin 11008) : BitVec 32 :=
  ((p (ix2 (⟨k.val / 8, by omega⟩ : Fin 512) o)).sshiftRight' (BitVec.ofNat 32 (28 - 4 * (k.val % 8)))) &&& 15#32

/-- The dequantised weight of input channel `k`, output channel `o`: (field − zero point) · scale. -/
def wq (p : (⟨2, ![512, 11008]⟩ : Shape).Idx → BitVec 32) (sc zp : (⟨2, ![11008, 1]⟩ : Shape).Idx → EReal)
    (k : Fin 4096) (o : Fin 11008) : EReal :=
  ((((nib p k o).toInt : ℝ) : EReal) - zp (ix2 o (0 : Fin 1))) * sc (ix2 o (0 : Fin 1))

/-- The result: x contracted with the dequantised weight over the input channels. -/
def out (x : (⟨3, ![4, 2048, 4096]⟩ : Shape).Idx → EReal) (p : (⟨2, ![512, 11008]⟩ : Shape).Idx → BitVec 32)
    (sc zp : (⟨2, ![11008, 1]⟩ : Shape).Idx → EReal) : (⟨3, ![4, 2048, 11008]⟩ : Shape).Idx → EReal :=
  fun i => ∑ k : Fin 4096, x (ix3 (i 0) (i 1) k) * wq p sc zp k (i 2)

end Cert.Spec

end
-- ==== Proof.K0Value.lean ====
/-
  What the dequantisation call leaves in the weight array, at the extended reals, entry by entry.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K0Defs
import proofs.«414396_j90658169684410_3_alg».proof.Proof.Spec
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The packed weight, the scale row, the zero-point row and the weight array after the call. -/
abbrev parr0 (c : Dev nD) : S512x11008.Idx → BitVec 32 := V c main_arg1
abbrev scrow0 (c : Dev nD) : S1x11008.Idx → EReal := V c main_v0
abbrev zprow0 (c : Dev nD) : S1x11008.Idx → EReal := V c main_v1
abbrev res0 (c : Dev nD) : S4096x11008.Idx → EReal := (dat0 (F := Ideal) V c).arrAt 3 cfg0.N

theorem hz0 : (![0, 0] : Fin 2 → Nat) = fun _ => 0 := funext fun a => by fin_cases a <;> rfl

/-- The shift word: 28 minus four times the low three bits of the row number. -/
theorem shiftWord (r : Nat) (hr : r < 4096) :
    IntOp.subi 28#32 (IntOp.muli 4#32 (IntOp.andi (BitVec.ofNat 32 r) 7#32)) = BitVec.ofNat 32 (28 - 4 * (r % 8)) := by
  unfold IntOp.subi IntOp.muli IntOp.andi
  apply BitVec.eq_of_toNat_eq
  have h7 : r &&& 7 = r % 8 := Nat.and_two_pow_sub_one_eq_mod r 3
  have hm : r % 8 < 8 := Nat.mod_lt _ (by decide)
  simp only [BitVec.toNat_sub, BitVec.toNat_mul, BitVec.toNat_and, BitVec.toNat_ofNat]
  have e : r % 2 ^ 32 = r := Nat.mod_eq_of_lt (by omega)
  have e7 : 7 % 2 ^ 32 = 7 := by decide
  rw [e, e7, h7]
  omega

/-- The arithmetic shift by a word below the width is the plain one. -/
theorem shrsi_small (x : BitVec 32) (s : Nat) (hs : s < 32) :
    IntOp.shrsi .vector x (BitVec.ofNat 32 s) = x.sshiftRight' (BitVec.ofNat 32 s) := by
  unfold IntOp.shrsi
  rw [if_pos]
  rw [BitVec.toNat_ofNat]
  omega

/-- Each packed row repeated eight times: row `r` of the repeated tile is packed row `r / 8`. -/
theorem rep_apply (x0 : IVec S512x256 32) (r : Fin 4096) (j : Fin 256) :
    shapeCast S4096x256 (broadcastTo S512x8x256 (shapeCast S512x1x256 x0 shapeCasts_S512x256_S512x1x256)
      broadcasts_S512x1x256_S512x8x256) shapeCasts_S512x8x256_S4096x256 (ix2 r j)
      = x0 (ix2 (⟨r.val / 8, by omega⟩ : Fin 512) j) := by
  refine (shapeCast_apply _ _ (ix2 r j) (ix3 (⟨r.val / 8, by omega⟩ : Fin 512) (⟨r.val % 8, Nat.mod_lt _ (by decide)⟩ : Fin 8) j) ?_).trans ?_
  · rw [Shape.rowMajor_val_three, Shape.rowMajor_val_two]
    show (r.val / 8 * 8 + r.val % 8) * 256 + j.val = r.val * 256 + j.val
    omega
  refine (broadcastTo_apply _ _ _ (ix3 (⟨r.val / 8, by omega⟩ : Fin 512) (0 : Fin 1) j) ?_).trans ?_
  · intro a
    match a with
    | ⟨0, _⟩ => rfl
    | ⟨1, _⟩ => rfl
    | ⟨2, _⟩ => rfl
  refine shapeCast_apply _ _ _ (ix2 (⟨r.val / 8, by omega⟩ : Fin 512) j) ?_
  rw [Shape.rowMajor_val_three, Shape.rowMajor_val_two]
  show r.val / 8 * 256 + j.val = (r.val / 8 * 1 + 0) * 256 + j.val
  omega

/-- The column of shift amounts spread over the lanes: at row `r` it is 28 − 4·(r mod 8), in every lane. -/
theorem shift_apply (r : Fin 4096) (j : Fin 256) :
    broadcastTo S4096x256 (subi (broadcast S4096x1 28#32) (muli (broadcast S4096x1 4#32)
      (andi (iota .tc S4096x1 32 [0] iota_S4096x1_d0_w32) (broadcast S4096x1 7#32)))) broadcasts_S4096x1_S4096x256 (ix2 r j)
      = BitVec.ofNat 32 (28 - 4 * (r.val % 8)) := by
  refine (broadcastTo_apply _ _ _ (ix2 r (0 : Fin 1)) ?_).trans ?_
  · intro a
    match a with
    | ⟨0, _⟩ => rfl
    | ⟨1, _⟩ => rfl
  show IntOp.subi 28#32 (IntOp.muli 4#32 (IntOp.andi (iota .tc S4096x1 32 [0] iota_S4096x1_d0_w32 (ix2 r (0 : Fin 1))) 7#32)) = _
  rw [iota_single_apply]
  exact shiftWord r.val r.isLt

/-- A row of 256 spread over the 4096 rows: every row reads it. -/
theorem row_apply (x : FVec Ideal S1x256 .f32) (r : Fin 4096) (j : Fin 256) :
    broadcastTo S4096x256 (shapeCast S1x256 x shapeCasts_S1x256_S1x256) broadcasts_S1x256_S4096x256 (ix2 r j)
      = x (ix2 (0 : Fin 1) j) := by
  rw [shapeCast_self]
  exact broadcastTo_1b_ab_apply x _ r j

/-- One dequantised entry from its four ingredients: the word, the shift amount, the zero point, the scale. -/
def deq (a b : BitVec 32) (z s : EReal) : EReal :=
  ((((IntOp.andi (IntOp.shrsi .vector a b) 15#32).toInt : ℝ) : EReal) - z) * s

/-- The body's tile, entry by entry, from the four spread-out operands. -/
theorem pay0_deq (x0 : Vec Ideal S512x256 .i32) (x1 x2 : Vec Ideal S1x256 .f32) (i : S4096x256.Idx) :
    k0_pay1 (F := Ideal) x0 x1 x2 i
      = deq (shapeCast S4096x256 (broadcastTo S512x8x256 (shapeCast S512x1x256 x0 shapeCasts_S512x256_S512x1x256)
              broadcasts_S512x1x256_S512x8x256) shapeCasts_S512x8x256_S4096x256 i)
            (broadcastTo S4096x256 (subi (broadcast S4096x1 28#32) (muli (broadcast S4096x1 4#32)
              (andi (iota .tc S4096x1 32 [0] iota_S4096x1_d0_w32) (broadcast S4096x1 7#32)))) broadcasts_S4096x1_S4096x256 i)
            (broadcastTo S4096x256 (shapeCast S1x256 x2 shapeCasts_S1x256_S1x256) broadcasts_S1x256_S4096x256 i)
            (broadcastTo S4096x256 (shapeCast S1x256 x1 shapeCasts_S1x256_S1x256) broadcasts_S1x256_S4096x256 i) := rfl

/-- The body's tile at row `r`, lane `j`: field `r mod 8` of packed row `r / 8`, less the lane's zero point, times
    the lane's scale. -/
theorem pay0_apply (x0 : Vec Ideal S512x256 .i32) (x1 x2 : Vec Ideal S1x256 .f32) (r : Fin 4096) (j : Fin 256) :
    k0_pay1 (F := Ideal) x0 x1 x2 (ix2 r j)
      = ((((((x0 (ix2 (⟨r.val / 8, by omega⟩ : Fin 512) j)).sshiftRight' (BitVec.ofNat 32 (28 - 4 * (r.val % 8)))) &&& 15#32).toInt : ℝ) : EReal)
          - x2 (ix2 (0 : Fin 1) j)) * x1 (ix2 (0 : Fin 1) j) := by
  rw [pay0_deq, rep_apply, shift_apply, row_apply, row_apply]
  unfold deq
  rw [shrsi_small _ _ (by omega)]
  rfl

/-- The weight of input channel `k`, output channel `o`: (field − zero point) · scale, the two read from row arrays. -/
def wv (P : S512x11008.Idx → BitVec 32) (SC ZP : S1x11008.Idx → EReal) (k : Fin 4096) (o : Fin 11008) : EReal :=
  ((((Cert.Spec.nib P k o).toInt : ℝ) : EReal) - ZP (ix2 (0 : Fin 1) o)) * SC (ix2 (0 : Fin 1) o)

/-- The whole weight array. -/
def G0 (P : S512x11008.Idx → BitVec 32) (SC ZP : S1x11008.Idx → EReal) : S4096x11008.Idx → EReal :=
  fun i => wv P SC ZP ⟨(i 0).val, idx2_lt0 i⟩ ⟨(i 1).val, idx2_lt1 i⟩

theorem G0_ix2 (P : S512x11008.Idx → BitVec 32) (SC ZP : S1x11008.Idx → EReal) (k : Fin 4096) (o : Fin 11008) :
    G0 P SC ZP (ix2 k o) = wv P SC ZP k o := rfl

/-- The body's tile at tile number `tv` is the tile of the weight array: columns 256·tv and on. -/
theorem tile_point (x0 : Vec Ideal S512x256 .i32) (x1 x2 : Vec Ideal S1x256 .f32)
    (P : S512x11008.Idx → BitVec 32) (SC ZP : S1x11008.Idx → EReal) (tv : Nat)
    (h0 : ∀ (a : Fin 512) (j : Fin 256) (o : Fin 11008), o.val = 256 * tv + j.val → x0 (ix2 a j) = P (ix2 a o))
    (h1 : ∀ (j : Fin 256) (o : Fin 11008), o.val = 256 * tv + j.val → x1 (ix2 (0 : Fin 1) j) = SC (ix2 (0 : Fin 1) o))
    (h2 : ∀ (j : Fin 256) (o : Fin 11008), o.val = 256 * tv + j.val → x2 (ix2 (0 : Fin 1) j) = ZP (ix2 (0 : Fin 1) o))
    (y : S4096x256.Idx) (i : S4096x11008.Idx) (hi0 : (i 0).val = (y 0).val) (hi1 : (i 1).val = 256 * tv + (y 1).val) :
    k0_pay1 (F := Ideal) x0 x1 x2 y = G0 P SC ZP i := by
  obtain ⟨r, j, rfl⟩ : ∃ (r : Fin 4096) (j : Fin 256), y = ix2 r j := ⟨y 0, y 1, eq_ix2 y⟩
  obtain ⟨k, o, rfl⟩ : ∃ (k : Fin 4096) (o : Fin 11008), i = ix2 k o := ⟨i 0, i 1, eq_ix2 i⟩
  have hk : k.val = r.val := hi0
  have ho : o.val = 256 * tv + j.val := hi1
  obtain rfl : k = r := Fin.ext hk
  rw [pay0_apply, G0_ix2, h0 _ j o ho, h1 j o ho, h2 j o ho]
  rfl

/-- The four index maps, decided over the 43 tiles: row block 0, column block the tile number. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The packed tile at `t` is columns 256·t and on of the packed weight. -/
theorem iblk0_0_apply (c : Dev nD) (t : Fin cfg0.N) (a : Fin 512) (j : Fin 256) (o : Fin 11008) (ho : o.val = 256 * t.val + j.val) :
    (iblk0 (F := Ideal) V c 0 t : Vec Ideal S512x256 .i32) (ix2 a j) = parr0 V c (ix2 a o) := by
  obtain ⟨e0, e1, -⟩ := idx_facts0 t
  unfold iblk0
  rw [View.read_apply]
  show V c main_arg1 _ = V c main_arg1 _
  congr 1
  funext d
  apply Fin.ext
  match d with
  | ⟨0, _⟩ => show win0_0.index t (0 : Fin 2) * 512 + 1 * a.val = a.val; rw [e0]; omega
  | ⟨1, _⟩ => show win0_0.index t (1 : Fin 2) * 256 + 1 * j.val = o.val; rw [e1, ho]; omega

/-- The scale tile at `t` is columns 256·t and on of the scale row. -/
theorem iblk0_1_apply (c : Dev nD) (t : Fin cfg0.N) (j : Fin 256) (o : Fin 11008) (ho : o.val = 256 * t.val + j.val) :
    (iblk0 (F := Ideal) V c 1 t : Vec Ideal S1x256 .f32) (ix2 (0 : Fin 1) j) = scrow0 V c (ix2 (0 : Fin 1) o) := by
  obtain ⟨-, -, e0, e1, -⟩ := idx_facts0 t
  unfold iblk0
  rw [View.read_apply]
  show V c main_v0 _ = V c main_v0 _
  congr 1
  funext d
  apply Fin.ext
  match d with
  | ⟨0, _⟩ => show win0_1.index t (0 : Fin 2) * 1 + 1 * 0 = 0; rw [e0]
  | ⟨1, _⟩ => show win0_1.index t (1 : Fin 2) * 256 + 1 * j.val = o.val; rw [e1, ho]; omega

/-- The zero-point tile at `t` is columns 256·t and on of the zero-point row. -/
theorem iblk0_2_apply (c : Dev nD) (t : Fin cfg0.N) (j : Fin 256) (o : Fin 11008) (ho : o.val = 256 * t.val + j.val) :
    (iblk0 (F := Ideal) V c 2 t : Vec Ideal S1x256 .f32) (ix2 (0 : Fin 1) j) = zprow0 V c (ix2 (0 : Fin 1) o) := by
  obtain ⟨-, -, -, -, e0, e1, -⟩ := idx_facts0 t
  unfold iblk0
  rw [View.read_apply]
  show V c main_v1 _ = V c main_v1 _
  congr 1
  funext d
  apply Fin.ext
  match d with
  | ⟨0, _⟩ => show win0_2.index t (0 : Fin 2) * 1 + 1 * 0 = 0; rw [e0]
  | ⟨1, _⟩ => show win0_2.index t (1 : Fin 2) * 256 + 1 * j.val = o.val; rw [e1, ho]; omega

/-- What tile `t` writes back is tile `t` of the weight array. -/
theorem flushed0_eq (c : Dev nD) (t : Fin cfg0.N) :
    (dat0 (F := Ideal) V c).flushed 3 t
      = ((cfg0.win 3).blk t).view.read (Elt Ideal) (G0 (parr0 V c) (scrow0 V c) (zprow0 V c)) := by
  show (cfg0.win 3).cut (grid0.coords t) ((dat0 (F := Ideal) V c).after 3 t) = _
  rw [after0_3]
  unfold out0_3
  rw [View.canon_unit_zero hz0]
  obtain ⟨-, -, -, -, -, -, e0, e1⟩ := idx_facts0 t
  funext y
  rw [View.read_apply]
  refine tile_point (iblk0 (F := Ideal) V c 0 t) (iblk0 (F := Ideal) V c 1 t) (iblk0 (F := Ideal) V c 2 t)
    (parr0 V c) (scrow0 V c) (zprow0 V c) t.val
    (fun a j o ho => iblk0_0_apply V c t a j o ho) (fun j o ho => iblk0_1_apply V c t j o ho)
    (fun j o ho => iblk0_2_apply V c t j o ho) y (((cfg0.win 3).blk t).view.emb y) ?_ ?_
  · show win0_3.index t (0 : Fin 2) * 4096 + 1 * (y 0).val = (y 0).val
    rw [e0]; omega
  · show win0_3.index t (1 : Fin 2) * 256 + 1 * (y 1).val = 256 * t.val + (y 1).val
    rw [e1]; omega

/-- An index of the weight array is in tile `t`'s block iff each coordinate is in the block's range on its axis. -/
theorem mem_blk0 (t : Fin cfg0.N) (i : S4096x11008.Idx) :
    i ∈ ((cfg0.win 3).blk t).view.set
      ↔ ∀ a : Fin 2, win0_3.index t a * S4096x256.size a ≤ (i a).val ∧ (i a).val < win0_3.index t a * S4096x256.size a + S4096x256.size a := by
  show i ∈ ((View.whole main_v2).slice (win0_3.rect t)).set ↔ _
  rw [View.set_slice_whole, Rect.mem_set_unit]
  exact Iff.rfl

/-- Every entry of the weight array is in the block of the tile of its column, `o / 256`. -/
theorem cover0 (i : S4096x11008.Idx) :
    ∃ t : Fin cfg0.N, (cfg0.win 3).flush t = true ∧ i ∈ ((cfg0.win 3).blk t).view.set := by
  have hi0 : (i 0).val < 4096 := idx2_lt0 i
  have hi1 : (i 1).val < 11008 := idx2_lt1 i
  have hN : cfg0.N = 43 := N_0
  let t : Fin cfg0.N := ⟨(i 1).val / 256, by rw [hN]; omega⟩
  obtain ⟨-, -, -, -, -, -, e0, e1⟩ := idx_facts0 t
  have e1' : win0_3.index t (1 : Fin 2) = (i 1).val / 256 := e1
  refine ⟨t, flush0_3 t, ?_⟩
  rw [mem_blk0]
  intro a
  match a with
  | ⟨0, _⟩ => show win0_3.index t (0 : Fin 2) * 4096 ≤ (i 0).val ∧ (i 0).val < win0_3.index t (0 : Fin 2) * 4096 + 4096; rw [e0]; omega
  | ⟨1, _⟩ => show win0_3.index t (1 : Fin 2) * 256 ≤ (i 1).val ∧ (i 1).val < win0_3.index t (1 : Fin 2) * 256 + 256; rw [e1']; omega

/-- After the 43 tiles the weight array is the dequantised weight, whole. -/
theorem arr0_eq (c : Dev nD) : res0 V c = G0 (parr0 V c) (scrow0 V c) (zprow0 V c) :=
  (dat0 (F := Ideal) V c).arrAt_eq_of_cover 3 (G0 (parr0 V c) (scrow0 V c) (zprow0 V c))
    (fun t _ => flushed0_eq V c t) cover0

/-- After the 43 tiles the weight array holds, at input channel `k` and output channel `o`, (field − zero point) · scale,
    the zero point and the scale read from the two row arrays the call is handed. -/
theorem arr0_val (c : Dev nD) (k : Fin 4096) (o : Fin 11008) :
    res0 V c (ix2 k o)
      = ((((Cert.Spec.nib (parr0 V c) k o).toInt : ℝ) : EReal) - zprow0 V c (ix2 (0 : Fin 1) o)) * scrow0 V c (ix2 (0 : Fin 1) o) := by
  rw [arr0_eq]
  rfl

end Cert.KernelIdeal.Hand

end
-- ==== Proof.K1ValuePay.lean ====
/-
  The matrix-product payloads at the extended reals, entry by entry: the zero block is zero, and the accumulating
  step adds to the block it is handed the product of the x block and the weight block.
-/
import proofs.«414396_j90658169684410_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx
open scoped BigOperators

/-! ## The operand indices of the block product -/

theorem lhs_k1_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

theorem lhs_k1_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q

theorem rhs_k1_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q

theorem rhs_k1_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-! ## The block product at an entry -/

/-- The product of a 1024×512 block and a 512×1024 block into the zero block, at row `i` and column `j`: the sum over
    the 512 contracted positions of the products. -/
theorem matmul_k1_apply (a : FVec Ideal S1024x512 .bf16) (b : FVec Ideal S512x1024 .bf16) (i j : Fin 1024) :
    FloatOps.matmul dot_S1024x512_S512x1024_S1024x1024_1_0_0_1_n_n none a b (constant (F := Ideal) S1024x1024 .f32 0x00000000#32) (ix2 i j)
      = ∑ k : Fin 512, a (ix2 i k) * b (ix2 k j) := by
  rw [Ideal.matmul_constant_zero_apply,
    ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 i j)
      ((ValueIdx.contrEquiv1 dot_S1024x512_S512x1024_S1024x1024_1_0_0_1_n_n 512 rfl rfl).symm k) = ix2 i k :=
    funext fun a => Fin.ext (by
      match a with
      | ⟨0, _⟩ => exact lhs_k1_0 _ _
      | ⟨1, _⟩ => exact (lhs_k1_1 _ _).trans hk)
  have er : dot_S1024x512_S512x1024_S1024x1024_1_0_0_1_n_n.rhsIdx (ix2 i j)
      ((ValueIdx.contrEquiv1 dot_S1024x512_S512x1024_S1024x1024_1_0_0_1_n_n 512 rfl rfl).symm k) = ix2 k j :=
    funext fun a => Fin.ext (by
      match a with
      | ⟨0, _⟩ => exact (rhs_k1_0 _ _).trans hk
      | ⟨1, _⟩ => exact rhs_k1_1 _ _)
  rw [el, er]

/-- The zero block is zero at every entry. -/
theorem k1_pay1_apply (j : S1024x1024.Idx) : k1_pay1 (F := Ideal) j = 0 := by
  unfold k1_pay1
  exact Ideal.ofBits_zero_f32

/-- The accumulating step at row `i`, column `j`: what the block held there plus the product's entry. -/
theorem k1_pay2_apply (x : Vec Ideal S1024x512 .f32) (y : Vec Ideal S1024x1024 .f32) (w : Vec Ideal S512x1024 .bf16)
    (i j : Fin 1024) :
    k1_pay2 x y w (ix2 i j) = y (ix2 i j) + ∑ k : Fin 512, x (ix2 i k) * w (ix2 k j) := by
  unfold k1_pay2
  simp only [shapeCast_self]
  exact congrArg (y (ix2 i j) + ·) (matmul_k1_apply _ _ i j)

end Cert.KernelIdeal.Hand

end
-- ==== Proof.K1Value.lean ====
/-
  What the matrix-product call leaves in the result array, at the extended reals, entry by entry.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.K1Defs
import proofs.«414396_j90658169684410_3_alg».proof.Proof.K1ValuePay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt Ideal) ((c : Thread nD τ).loc b))

/-- x (reshaped to 8192×4096), the dequantised weight and the result array after the call, as arrays of extended reals. -/
abbrev xarr1 (c : Dev nD) : S8192x4096.Idx → EReal := V c main_v3
abbrev warr1 (c : Dev nD) : S4096x11008.Idx → EReal := V c main_v2
abbrev res1 (c : Dev nD) : S8192x11008.Idx → EReal := (dat1 (F := Ideal) V c).arrAt 2 cfg1.N

/-! ## Where the blocks sit -/

/-- The printed index maps over the grid: point `t` is row tile `t / 88`, column tile `t / 8 % 11`, step `t % 8`. -/
theorem idx1 : ∀ t : Fin cfg1.N,
    win1_0.index t (0 : Fin 2) = t.val / 88 ∧ win1_0.index t (1 : Fin 2) = t.val % 8
    ∧ win1_1.index t (0 : Fin 2) = t.val % 8 ∧ win1_1.index t (1 : Fin 2) = t.val / 8 % 11
    ∧ win1_2.index t (0 : Fin 2) = t.val / 88 ∧ win1_2.index t (1 : Fin 2) = t.val / 8 % 11 :=
  (by decide +kernel : ∀ t : Fin grid1.N, _)

/-- The part of a block that is moved: all of it, but for the last column tile, of which the leading 768 columns. -/
theorem xs1 : ∀ t : Fin cfg1.N,
    win1_1.xsize (grid1.coords t) (0 : Fin 2) = 512
    ∧ win1_1.xsize (grid1.coords t) (1 : Fin 2) = (if t.val / 8 % 11 = 10 then 768 else 1024)
    ∧ win1_2.xsize (grid1.coords t) (0 : Fin 2) = 1024
    ∧ win1_2.xsize (grid1.coords t) (1 : Fin 2) = (if t.val / 8 % 11 = 10 then 768 else 1024) :=
  (by decide +kernel : ∀ t : Fin grid1.N, _)

theorem lt_N1 (t : Fin cfg1.N) : t.val < 704 := by
  exact lt_of_lt_of_eq t.isLt N_1

/-- An entry of x's block at a point is the entry of x at the block's offsets. -/
theorem xblk1_apply (c : Dev nD) (t : Fin cfg1.N) (i : Fin 1024) (kk : Fin 512) (r : Fin 8192) (k : Fin 4096)
    (hr : r.val = t.val / 88 * 1024 + i.val) (hk : k.val = t.val % 8 * 512 + kk.val) :
    xblk1 V c t (ix2 i kk) = xarr1 V c (ix2 r k) := by
  obtain ⟨e0, e1, e2, e3, e4, e5⟩ := idx1 t
  unfold xblk1 iblk1
  rw [View.read_apply]
  show V c main_v3 _ = V c main_v3 _
  congr 1
  funext a
  apply Fin.ext
  match a with
  | ⟨0, _⟩ => show win1_0.index t (0 : Fin 2) * 1024 + 1 * i.val = r.val; rw [e0]; omega
  | ⟨1, _⟩ => show win1_0.index t (1 : Fin 2) * 512 + 1 * kk.val = k.val; rw [e1]; omega

/-- An entry of the weight's block at a point, at a column that is moved, is the entry of the weight at the block's
    offsets. -/
theorem wblk1_apply (c : Dev nD) (t : Fin cfg1.N) (kk : Fin 512) (j : Fin 1024) (k : Fin 4096) (o : Fin 11008)
    (hk : k.val = t.val % 8 * 512 + kk.val) (ho : o.val = t.val / 8 % 11 * 1024 + j.val) :
    wblk1 V c t (ix2 kk j) = warr1 V c (ix2 k o) := by
  obtain ⟨e0, e1, e2, e3, e4, e5⟩ := idx1 t
  obtain ⟨s0, s1, s2, s3⟩ := xs1 t
  have hm : win1_1.moved (grid1.coords t) (ix2 kk j) = true := (win1_1.moved_iff _ _).mpr fun a => by
    match a with
    | ⟨0, _⟩ => show kk.val < win1_1.xsize (grid1.coords t) (0 : Fin 2); rw [s0]; exact kk.isLt
    | ⟨1, _⟩ =>
      show j.val < win1_1.xsize (grid1.coords t) (1 : Fin 2)
      rw [s1]; have := o.isLt; have := j.isLt; split <;> omega
  unfold wblk1 Window.fill
  rw [dif_pos hm]
  unfold iblk1
  rw [View.read_apply]
  show V c main_v2 _ = V c main_v2 _
  congr 1
  funext a
  apply Fin.ext
  match a with
  | ⟨0, _⟩ => show win1_1.index t (0 : Fin 2) * 512 + 1 * kk.val = k.val; rw [e2]; omega
  | ⟨1, _⟩ => show win1_1.index t (1 : Fin 2) * 1024 + 1 * j.val = o.val; rw [e3]; omega

/-! ## The two arrays by natural coordinates -/

/-- x at row `r` and input channel `k` given as naturals (zero outside the array, where nothing reads). -/
def xN (c : Dev nD) (r k : ℕ) : EReal :=
  if h : r < 8192 ∧ k < 4096 then xarr1 V c (ix2 ⟨r, h.1⟩ ⟨k, h.2⟩) else 0

/-- The weight at input channel `k` and output channel `o` given as naturals. -/
def wN (c : Dev nD) (k o : ℕ) : EReal :=
  if h : k < 4096 ∧ o < 11008 then warr1 V c (ix2 ⟨k, h.1⟩ ⟨o, h.2⟩) else 0

theorem xblk1_N (c : Dev nD) (t : Fin cfg1.N) (i : Fin 1024) (kk : Fin 512) :
    xblk1 V c t (ix2 i kk) = xN V c (t.val / 88 * 1024 + i.val) (t.val % 8 * 512 + kk.val) := by
  have ht := lt_N1 t
  have hi := i.isLt
  have hkk := kk.isLt
  unfold xN
  rw [dif_pos ⟨by omega, by omega⟩]
  exact xblk1_apply V c t i kk _ _ rfl rfl

theorem wblk1_N (c : Dev nD) (t : Fin cfg1.N) (kk : Fin 512) (j : Fin 1024)
    (hj : t.val / 8 % 11 * 1024 + j.val < 11008) :
    wblk1 V c t (ix2 kk j) = wN V c (t.val % 8 * 512 + kk.val) (t.val / 8 % 11 * 1024 + j.val) := by
  have hkk := kk.isLt
  unfold wN
  rw [dif_pos ⟨by omega, hj⟩]
  exact wblk1_apply V c t kk j _ _ rfl rfl

/-! ## The accumulation along the contracted axis -/

theorem acc1_congr (c : Dev nD) (n n' : ℕ) (e : n = n') (h : n < cfg1.N) (h' : n' < cfg1.N) :
    acc1 V c n h = acc1 V c n' h' := by
  subst e; rfl

/-- After step `s` of the group of eight points `8·q … 8·q + 7` (row tile `q / 11`, column tile `q % 11`) the
    output block holds, at a row and at a column inside the array, the sum over the steps so far of the products of
    the x and weight entries of the step's 512 input channels. -/
theorem acc1_val (c : Dev nD) (q : ℕ) : ∀ (s : ℕ) (hs : s < 8) (h : 8 * q + s < cfg1.N) (i j : Fin 1024)
    (hj : q % 11 * 1024 + j.val < 11008),
    acc1 V c (8 * q + s) h (ix2 i j)
      = ∑ s' ∈ Finset.range (s + 1), ∑ kk : Fin 512,
          xN V c (q / 11 * 1024 + i.val) (s' * 512 + kk.val) * wN V c (s' * 512 + kk.val) (q % 11 * 1024 + j.val)
  | 0, hs, h, i, j, hj => by
    have e := acc1_reset V c ⟨8 * q + 0, h⟩ (by show (8 * q + 0) % 8 = 0; omega)
    refine (congrFun e (ix2 i j)).trans ?_
    refine (k1_pay2_apply _ _ _ i j).trans ?_
    rw [k1_pay1_apply, zero_add, Finset.sum_range_one]
    refine Finset.sum_congr rfl fun kk _ => ?_
    rw [xblk1_N, wblk1_N V c _ kk j (by show (8 * q + 0) / 8 % 11 * 1024 + j.val < 11008; omega)]
    show xN V c ((8 * q + 0) / 88 * 1024 + i.val) ((8 * q + 0) % 8 * 512 + kk.val)
        * wN V c ((8 * q + 0) % 8 * 512 + kk.val) ((8 * q + 0) / 8 % 11 * 1024 + j.val) = _
    rw [show (8 * q + 0) / 88 = q / 11 by omega, show (8 * q + 0) % 8 = 0 by omega, show (8 * q + 0) / 8 % 11 = q % 11 by omega]
  | s + 1, hs, h, i, j, hj => by
    have e := acc1_step V c ⟨8 * q + (s + 1), h⟩ (by show ¬(8 * q + (s + 1)) % 8 = 0; omega)
    refine (congrFun e (ix2 i j)).trans ?_
    refine (k1_pay2_apply _ _ _ i j).trans ?_
    rw [Finset.sum_range_succ _ (s + 1)]
    congr 1
    · rw [acc1_congr V c _ (8 * q + s) (by show 8 * q + (s + 1) - 1 = 8 * q + s; omega) _ (by omega)]
      exact acc1_val c q s (by omega) (by omega) i j hj
    · refine Finset.sum_congr rfl fun kk _ => ?_
      rw [xblk1_N, wblk1_N V c _ kk j (by show (8 * q + (s + 1)) / 8 % 11 * 1024 + j.val < 11008; omega)]
      show xN V c ((8 * q + (s + 1)) / 88 * 1024 + i.val) ((8 * q + (s + 1)) % 8 * 512 + kk.val)
          * wN V c ((8 * q + (s + 1)) % 8 * 512 + kk.val) ((8 * q + (s + 1)) / 8 % 11 * 1024 + j.val) = _
      rw [show (8 * q + (s + 1)) / 88 = q / 11 by omega, show (8 * q + (s + 1)) % 8 = s + 1 by omega,
        show (8 * q + (s + 1)) / 8 % 11 = q % 11 by omega]

/-! ## The steps' sums as one sum over the input channels -/

theorem sum_range_mul (f : ℕ → EReal) (m : ℕ) : ∀ n : ℕ,
    ∑ s ∈ Finset.range n, ∑ kk ∈ Finset.range m, f (s * m + kk) = ∑ k ∈ Finset.range (n * m), f k
  | 0 => by simp
  | n + 1 => by
    rw [Finset.sum_range_succ, sum_range_mul f m n, add_one_mul, Finset.sum_range_add]

/-- The product of x and the weight, entry by entry, over natural coordinates. -/
def G1 (c : Dev nD) : S8192x11008.Idx → EReal :=
  fun i => ∑ k ∈ Finset.range 4096, xN V c (i 0).val k * wN V c k (i 1).val

theorem G1_apply (c : Dev nD) (i : S8192x11008.Idx) (R O : ℕ) (h0 : (i 0).val = R) (h1 : (i 1).val = O) :
    G1 V c i = ∑ s' ∈ Finset.range 8, ∑ kk : Fin 512, xN V c R (s' * 512 + kk.val) * wN V c (s' * 512 + kk.val) O := by
  unfold G1
  rw [h0, h1]
  refine Eq.trans (show _ = ∑ k ∈ Finset.range (8 * 512), (fun k => xN V c R k * wN V c k O) k from rfl) ?_
  rw [← sum_range_mul]
  refine Finset.sum_congr rfl fun s _ => ?_
  exact Finset.sum_range (fun kk => xN V c R (s * 512 + kk) * wN V c (s * 512 + kk) O)

/-! ## From the blocks to the array -/

/-- What a point that closes a group of eight writes back is its block of the product. -/
theorem flushed1_eq (c : Dev nD) (t : Fin cfg1.N) (hf : t.val % 8 = 7) :
    (dat1 (F := Ideal) V c).flushed 2 t = ((cfg1.win 2).blk t).view.read (Elt Ideal) (G1 V c) := by
  obtain ⟨e0, e1, e2, e3, e4, e5⟩ := idx1 t
  obtain ⟨s0, s1, s2, s3⟩ := xs1 t
  have ht := lt_N1 t
  show (cfg1.win 2).cut (cfg1.grid.coords t) ((dat1 (F := Ideal) V c).after 2 t) = _
  rw [after1_2]
  funext y
  have hy0 : (y 0).val < 1024 := lt_of_lt_of_eq (y 0).isLt s2
  have hy1 : (y 1).val < (if t.val / 8 % 11 = 10 then 768 else 1024) := lt_of_lt_of_eq (y 1).isLt s3
  have hy1' : (y 1).val < 1024 := by split at hy1 <;> omega
  have hcol : t.val / 8 % 11 * 1024 + (y 1).val < 11008 := by split at hy1 <;> omega
  have hq : t.val = 8 * (t.val / 8) + 7 := by omega
  have hx : win1_2.xinj (grid1.coords t) y = ix2 (⟨(y 0).val, hy0⟩ : Fin 1024) (⟨(y 1).val, hy1'⟩ : Fin 1024) :=
    funext fun a => Fin.ext (by match a with | ⟨0, _⟩ => rfl | ⟨1, _⟩ => rfl)
  have h0 : ((((cfg1.win 2).blk t).view.emb y) 0).val = t.val / 8 / 11 * 1024 + (y 0).val := by
    show win1_2.index t (0 : Fin 2) * 1024 + 1 * (y 0).val = _; rw [e4]; omega
  have h1 : ((((cfg1.win 2).blk t).view.emb y) 1).val = t.val / 8 % 11 * 1024 + (y 1).val := by
    show win1_2.index t (1 : Fin 2) * 1024 + 1 * (y 1).val = _; rw [e5]; omega
  show acc1 V c t.val t.isLt (win1_2.xinj (grid1.coords t) y) = G1 V c (((cfg1.win 2).blk t).view.emb y)
  rw [hx, acc1_congr V c t.val (8 * (t.val / 8) + 7) hq t.isLt (by omega),
    acc1_val V c (t.val / 8) 7 (by omega) _ _ _ hcol]
  exact (G1_apply V c _ _ _ h0 h1).symm

/-- An entry of the array is in a point's block iff each coordinate is in the moved part of the block's range. -/
theorem mem_blk1 (t : Fin cfg1.N) (i : S8192x11008.Idx) :
    i ∈ ((cfg1.win 2).blk t).view.set ↔ ∀ a : Fin 2, win1_2.index t a * S1024x1024.size a ≤ (i a).val
      ∧ (i a).val < win1_2.index t a * S1024x1024.size a + win1_2.xsize (grid1.coords t) a := by
  show i ∈ ((View.whole main_v4).slice (win1_2.rect t)).set ↔ _
  rw [View.set_slice_whole, Rect.mem_set_unit]
  exact Iff.rfl

/-- Every entry of the result array is in the block of the point that closes its tile's group of eight. -/
theorem cover1 (i : S8192x11008.Idx) :
    ∃ t : Fin cfg1.N, (cfg1.win 2).flush t = true ∧ i ∈ ((cfg1.win 2).blk t).view.set := by
  have hi0 : (i 0).val < 8192 := idx2_lt0 i
  have hi1 : (i 1).val < 11008 := idx2_lt1 i
  have hN : ((i 0).val / 1024 * 11 + (i 1).val / 1024) * 8 + 7 < cfg1.N := by
    rw [show cfg1.N = 704 from N_1]; omega
  have e := idx1 ⟨_, hN⟩
  have s := xs1 ⟨_, hN⟩
  have e4 : win1_2.index ⟨_, hN⟩ (0 : Fin 2) = (((i 0).val / 1024 * 11 + (i 1).val / 1024) * 8 + 7) / 88 := e.2.2.2.2.1
  have e5 : win1_2.index ⟨_, hN⟩ (1 : Fin 2) = (((i 0).val / 1024 * 11 + (i 1).val / 1024) * 8 + 7) / 8 % 11 := e.2.2.2.2.2
  have s2 : win1_2.xsize (grid1.coords ⟨_, hN⟩) (0 : Fin 2) = 1024 := s.2.2.1
  have s3 : win1_2.xsize (grid1.coords ⟨_, hN⟩) (1 : Fin 2)
      = (if (((i 0).val / 1024 * 11 + (i 1).val / 1024) * 8 + 7) / 8 % 11 = 10 then 768 else 1024) := s.2.2.2
  refine ⟨⟨_, hN⟩, (flush1_2 _).mpr (by show (((i 0).val / 1024 * 11 + (i 1).val / 1024) * 8 + 7) % 8 = 7; omega), ?_⟩
  rw [mem_blk1]
  intro a
  match a with
  | ⟨0, _⟩ =>
    show win1_2.index ⟨_, hN⟩ (0 : Fin 2) * 1024 ≤ (i 0).val
      ∧ (i 0).val < win1_2.index ⟨_, hN⟩ (0 : Fin 2) * 1024 + win1_2.xsize (grid1.coords ⟨_, hN⟩) (0 : Fin 2)
    rw [e4, s2]; omega
  | ⟨1, _⟩ =>
    show win1_2.index ⟨_, hN⟩ (1 : Fin 2) * 1024 ≤ (i 1).val
      ∧ (i 1).val < win1_2.index ⟨_, hN⟩ (1 : Fin 2) * 1024 + win1_2.xsize (grid1.coords ⟨_, hN⟩) (1 : Fin 2)
    rw [e5, s3]; split <;> omega

/-- The result array after the call is the product. -/
theorem final1 (c : Dev nD) : res1 V c = G1 V c :=
  (dat1 (F := Ideal) V c).arrAt_eq_of_cover 2 (G1 V c) (fun t hf => flushed1_eq V c t ((flush1_2 t).mp hf)) cover1

/-- After the 704 points the result array holds, at row `r` and output channel `o`, the sum over the 4096 input
    channels of x times the weight, both as the call found them. -/
theorem arr1_val (c : Dev nD) (r : Fin 8192) (o : Fin 11008) :
    res1 V c (ix2 r o) = ∑ k : Fin 4096, xarr1 V c (ix2 r k) * warr1 V c (ix2 k o) := by
  refine (congrFun (final1 V c) (ix2 r o)).trans ?_
  unfold G1
  rw [Finset.sum_range]
  refine Finset.sum_congr rfl fun k _ => ?_
  show xN V c r.val k.val * wN V c k.val o.val = _
  unfold xN wN
  rw [dif_pos ⟨r.isLt, k.isLt⟩, dif_pos ⟨k.isLt, o.isLt⟩]

end Cert.KernelIdeal.Hand

end
-- ==== Proof.KHost.lean ====
/-
  The host reshapes read at an index, at the extended reals: the scale and zero-point columns as rows, x flattened to
  8192 rows (row r is batch r / 2048, position r mod 2048), the weight array handed from the first call to the second,
  and the result unflattened; and the packed weight, which nothing before the first call writes.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.KLaunch
import proofs.«414396_j90658169684410_3_alg».proof.Proof.K0Value
import proofs.«414396_j90658169684410_3_alg».proof.Proof.K1Value
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The four argument arrays at launch, as arrays of extended reals and of words. -/
abbrev a0 (c : Dev nD) : S4x2048x4096.Idx → EReal := m ((c : Thread nD τ).loc main_arg0)
abbrev a1 (c : Dev nD) : S512x11008.Idx → BitVec 32 := m ((c : Thread nD τ).loc main_arg1)
abbrev a2 (c : Dev nD) : S11008x1.Idx → EReal := m ((c : Thread nD τ).loc main_arg2)
abbrev a3 (c : Dev nD) : S11008x1.Idx → EReal := m ((c : Thread nD τ).loc main_arg3)

/-- The reshape of x writes its own result only: every other buffer is as the first call left it. -/
theorem W3_unwritten (c : Dev nD) (r : Ref sig .tc) (h : r ∉ hostOps1_W) :
    W3 m c (Proc.devRef .tc r) = W2 m c (Proc.devRef .tc r) :=
  StableHlo.after_of_writes_sub hostOps1 _ hostOps1_writes h

/-- The first call finds the packed weight as launched, -/
theorem Ve1_arg1 (c : Dev nD) : parr0 (Ve1 m) c = a1 m c :=
  (V1_of m c main_arg1 (by decide)).trans rfl

/-- the scale column as a row, -/
theorem Ve1_v0 (c : Dev nD) (o : Fin 11008) : scrow0 (Ve1 m) c (ix2 (0 : Fin 1) o) = a2 m c (ix2 o (0 : Fin 1)) := by
  have e : (scrow0 (Ve1 m) c : S1x11008.Idx → EReal) = shapeCast S1x11008 (a2 m c) shapeCasts_S11008x1_S1x11008 := by
    show StableHlo.after hostOps0 _ (Proc.devRef .tc main_v0) = _
    after_results; rfl
  rw [e]
  exact shapeCast_apply _ _ _ _ (by
    rw [Shape.rowMajor_val_two, Shape.rowMajor_val_two]
    show o.val * 1 + 0 = 0 * 11008 + o.val
    omega)

/-- and the zero-point column as a row. -/
theorem Ve1_v1 (c : Dev nD) (o : Fin 11008) : zprow0 (Ve1 m) c (ix2 (0 : Fin 1) o) = a3 m c (ix2 o (0 : Fin 1)) := by
  have e : (zprow0 (Ve1 m) c : S1x11008.Idx → EReal) = shapeCast S1x11008 (a3 m c) shapeCasts_S11008x1_S1x11008 := by
    show StableHlo.after hostOps0 _ (Proc.devRef .tc main_v1) = _
    after_results; rfl
  rw [e]
  exact shapeCast_apply _ _ _ _ (by
    rw [Shape.rowMajor_val_two, Shape.rowMajor_val_two]
    show o.val * 1 + 0 = 0 * 11008 + o.val
    omega)

/-- The second call finds x flattened: row `r` is batch `r / 2048`, position `r % 2048`; -/
theorem Ve3_v3 (c : Dev nD) (r : Fin 8192) (k : Fin 4096) :
    xarr1 (Ve3 m) c (ix2 r k) = a0 m c (ix3 (⟨r.val / 2048, by omega⟩ : Fin 4) (⟨r.val % 2048, Nat.mod_lt _ (by decide)⟩ : Fin 2048) k) := by
  have e : (xarr1 (Ve3 m) c : S8192x4096.Idx → EReal) = shapeCast S8192x4096 (a0 m c) shapeCasts_S4x2048x4096_S8192x4096 := by
    show StableHlo.after hostOps1 _ (Proc.devRef .tc main_v3) = _
    after_results
    rw [W2_of_ne m c main_arg0 (by decide), V1_of m c main_arg0 (by decide)]
    rfl
  rw [e]
  exact shapeCast_apply _ _ _ _ (by
    rw [Shape.rowMajor_val_three, Shape.rowMajor_val_two]
    show (r.val / 2048 * 2048 + r.val % 2048) * 4096 + k.val = r.val * 4096 + k.val
    omega)

/-- and the weight array as the first call left it. -/
theorem Ve3_v2 (c : Dev nD) : warr1 (Ve3 m) c = res0 (Ve1 m) c :=
  (W3_unwritten m c main_v2 (by decide)).trans (W2_arr m c 3)

/-- The last reshape: entry (b, s, j) of the result is entry (b·2048 + s, j) of the second call's result array. -/
theorem W5_v5 (c : Dev nD) (o : S8192x11008.Idx → EReal) (b : Fin 4) (s : Fin 2048) (j : Fin 11008) :
    (show S4x2048x11008.Idx → EReal from W5 m c o (Proc.devRef .tc main_v5)) (ix3 b s j)
      = o (ix2 (⟨b.val * 2048 + s.val, by omega⟩ : Fin 8192) j) := by
  have e : (show S4x2048x11008.Idx → EReal from W5 m c o (Proc.devRef .tc main_v5))
      = shapeCast S4x2048x11008 o shapeCasts_S8192x11008_S4x2048x11008 := by
    show StableHlo.after hostOps2 _ (Proc.devRef .tc main_v5) = _
    after_results
    rw [show W4 m c o (Proc.devRef .tc main_v4) = o from W4_arr m c o 2]
    rfl
  rw [e]
  exact shapeCast_apply _ _ _ _ (by
    rw [Shape.rowMajor_val_two, Shape.rowMajor_val_three]
    rfl)

end Cert.KernelIdeal.Hand

end
-- ==== Proof.KValue.lean ====
/-
  The idealised kernel's result in closed form: the two calls' values and the host reshapes composed are the
  specification, x contracted with the dequantised weight.
-/
import proofs.«414396_j90658169684410_3_alg».proof.Proof.Gen.KernelIdeal.Launch
import proofs.«414396_j90658169684410_3_alg».proof.Proof.Gen.KernelIdeal.Skeleton
import proofs.«414396_j90658169684410_3_alg».proof.Proof.Gen.KernelIdeal.Points
import proofs.«414396_j90658169684410_3_alg».proof.Proof.KHost
import proofs.«414396_j90658169684410_3_alg».proof.Proof.Spec
import Idealize.ShloMosaic.PureOps.Ideal
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- With the second call's result array at what its data compute, the reshaped result is the specification of the
    launch contents of the four arguments. -/
theorem kernel_val (c : Dev nD) :
    (show S4x2048x11008.Idx → EReal from W5 m c ((dat1 (F := Ideal) (Ve3 m) c).arrAt 2 cfg1.N) (Proc.devRef .tc main_v5))
      = Cert.Spec.out (a0 m c) (a1 m c) (a2 m c) (a3 m c) := by
  funext i
  obtain ⟨b, s, j, rfl⟩ : ∃ (b : Fin 4) (s : Fin 2048) (j : Fin 11008), i = ix3 b s j := ⟨i 0, i 1, i 2, eq_ix3 i⟩
  -- the last reshape, then the second call's product, whose operands are x flattened and the first call's weight array
  refine (W5_v5 m c _ b s j).trans ?_
  refine (arr1_val (Ve3 m) c _ j).trans ?_
  unfold Cert.Spec.out
  refine Finset.sum_congr rfl fun k _ => ?_
  rw [Ve3_v3, congrFun (Ve3_v2 m c) _, arr0_val, Ve1_arg1, Ve1_v0, Ve1_v1]
  -- row b·2048 + s of the flattened x is batch b, position s
  have hq : (b.val * 2048 + s.val) / 2048 = b.val := by have := s.isLt; omega
  have hr : (b.val * 2048 + s.val) % 2048 = s.val := by have := s.isLt; omega
  have e : ∀ (h1 : (b.val * 2048 + s.val) / 2048 < 4) (h2 : (b.val * 2048 + s.val) % 2048 < 2048),
      ix3 (⟨(b.val * 2048 + s.val) / 2048, h1⟩ : Fin 4) (⟨(b.val * 2048 + s.val) % 2048, h2⟩ : Fin 2048) k = ix3 b s k := by
    intro h1 h2
    have e1 : (⟨(b.val * 2048 + s.val) / 2048, h1⟩ : Fin 4) = b := Fin.ext hq
    have e2 : (⟨(b.val * 2048 + s.val) % 2048, h2⟩ : Fin 2048) = s := Fin.ext hr
    rw [e1, e2]
  exact congrArg₂ (· * ·) (congrArg (a0 m c) (e _ _)) rfl

end Cert.KernelIdeal.Hand

end
-- ==== Proof.RefTerm.lean ====
/-
  The reference program's result as one pure term of its four arguments: the 4096 row numbers k, the packed row
  floor(4k / 32) and the shift 32 − (4k mod 32) − 4 of each, the gathered packed rows shifted and masked to their
  4-bit fields, transposed, converted, (field − zero point) · scale, and x contracted with that matrix. One named
  intermediate per operation of the program, in the program's order, the two outlined integer functions (floor division and the
  floored remainder, each with its select) written out at their calls; the chain is cut by meaning into the packed row of a
  row number, its shift, the table of fields, the dequantised matrix, and the contraction.
-/
import proofs.«414396_j90658169684410_3_alg».proof.ReferenceIdeal
import Idealize.ShloMosaic.PureOps

noncomputable section

namespace Cert.ReferenceIdeal.Hand

open Cert.ReferenceIdeal Cert.ReferenceIdeal.Facts₀
open Idealize.ShloMosaic

variable {F : FTy → Type} [FloatOps F] [Facts]

/-- `%3`: the floor division of 4·k by 32, k the row number: the truncated quotient, less one where the signs of
    4·k and 32 differ and the remainder is not zero. -/
def rowQ : IVec S4096 32 :=
  have v0 : IVec S4096 32 := iotaInDim S4096 32 0
  have c : IVec S_ 32 := constantI S_ 32 4#32
  have v1 : IVec S4096 32 := broadcastInDim S4096 ![] bcast_S_S4096 c
  have v2 : IVec S4096 32 := muli v0 v1
  have c_0 : IVec S_ 32 := constantI S_ 32 32#32
  have d_v0 : IVec S_ 32 := id c_0
  have d_v1 : IVec S4096 32 := broadcastInDim S4096 ![] bcast_S_S4096 d_v0
  have d_v2 : IVec S4096 32 := Host.divsi v2 d_v1
  have d_v3 : IVec S4096 32 := signi v2
  have d_v4 : IVec S_ 32 := signi d_v0
  have d_v5 : IVec S4096 32 := broadcastInDim S4096 ![] bcast_S_S4096 d_v4
  have d_v6 : IVec S4096 1 := cmpi .ne d_v3 d_v5
  have d_v7 : IVec S4096 32 := broadcastInDim S4096 ![] bcast_S_S4096 d_v0
  have d_v8 : IVec S4096 32 := Host.remsi v2 d_v7
  have d_c : IVec S_ 32 := constantI S_ 32 0#32
  have d_v9 : IVec S4096 32 := broadcastInDim S4096 ![] bcast_S_S4096 d_c
  have d_v10 : IVec S4096 1 := cmpi .ne d_v8 d_v9
  have d_v11 : IVec S4096 1 := andi d_v6 d_v10
  have d_c_0 : IVec S_ 32 := constantI S_ 32 1#32
  have d_v12 : IVec S4096 32 := broadcastInDim S4096 ![] bcast_S_S4096 d_c_0
  have d_v13 : IVec S4096 32 := subi d_v2 d_v12
  select d_v11 d_v13 d_v2

/-- `%6`: the floored remainder of 4·k by 32: the truncated remainder (by 1 were the divisor 0), plus the divisor
    where it is not zero and its sign differs from the divisor's. -/
def rowR : IVec S4096 32 :=
  have v0 : IVec S4096 32 := iotaInDim S4096 32 0
  have c_1 : IVec S_ 32 := constantI S_ 32 4#32
  have v4 : IVec S4096 32 := broadcastInDim S4096 ![] bcast_S_S4096 c_1
  have v5 : IVec S4096 32 := muli v0 v4
  have c_2 : IVec S_ 32 := constantI S_ 32 32#32
  have r_v0 : IVec S_ 32 := id c_2
  have r_c : IVec S_ 32 := constantI S_ 32 0#32
  have r_v1 : IVec S_ 1 := cmpi .eq r_v0 r_c
  have r_c_0 : IVec S_ 32 := constantI S_ 32 1#32
  have r_v2 : IVec S_ 32 := select r_v1 r_c_0 r_v0
  have r_v3 : IVec S4096 32 := broadcastInDim S4096 ![] bcast_S_S4096 r_v2
  have r_v4 : IVec S4096 32 := Host.remsi v5 r_v3
  have r_c_1 : IVec S_ 32 := constantI S_ 32 0#32
  have r_v5 : IVec S4096 32 := broadcastInDim S4096 ![] bcast_S_S4096 r_c_1
  have r_v6 : IVec S4096 1 := cmpi .ne r_v4 r_v5
  have r_c_2 : IVec S_ 32 := constantI S_ 32 0#32
  have r_v7 : IVec S4096 32 := broadcastInDim S4096 ![] bcast_S_S4096 r_c_2
  have r_v8 : IVec S4096 1 := cmpi .slt r_v4 r_v7
  have r_c_3 : IVec S_ 32 := constantI S_ 32 0#32
  have r_v9 : IVec S_ 1 := cmpi .slt r_v2 r_c_3
  have r_v10 : IVec S4096 1 := broadcastInDim S4096 ![] bcast_S_S4096 r_v9
  have r_v11 : IVec S4096 1 := cmpi .ne r_v8 r_v10
  have r_v12 : IVec S4096 1 := andi r_v11 r_v6
  have r_v13 : IVec S4096 32 := broadcastInDim S4096 ![] bcast_S_S4096 r_v2
  have r_v14 : IVec S4096 32 := addi r_v4 r_v13
  select r_v12 r_v14 r_v4

/-- `%10`: the shift 32 − (4·k mod 32) − 4. -/
def shiftAmt : IVec S4096 32 :=
  have v6 : IVec S4096 32 := rowR
  have c_3 : IVec S_ 32 := constantI S_ 32 32#32
  have v7 : IVec S4096 32 := broadcastInDim S4096 ![] bcast_S_S4096 c_3
  have v8 : IVec S4096 32 := subi v7 v6
  have c_4 : IVec S_ 32 := constantI S_ 32 4#32
  have v9 : IVec S4096 32 := broadcastInDim S4096 ![] bcast_S_S4096 c_4
  subi v8 v9

/-- `%16`: the packed row, a negative one counted from the end, as a one-column index table. -/
def rowIx : IVec S4096x1 32 :=
  have v3 : IVec S4096 32 := rowQ
  have c_5 : IVec S_ 32 := constantI S_ 32 0#32
  have v11 : IVec S4096 32 := broadcastInDim S4096 ![] bcast_S_S4096 c_5
  have v12 : IVec S4096 1 := cmpi .slt v3 v11
  have c_6 : IVec S_ 32 := constantI S_ 32 512#32
  have v13 : IVec S4096 32 := broadcastInDim S4096 ![] bcast_S_S4096 c_6
  have v14 : IVec S4096 32 := addi v3 v13
  have v15 : IVec S4096 32 := select v12 v14 v3
  broadcastInDim S4096x1 ![0] bcast_S4096_S4096x1_0 v15

/-- `%23`: the gathered packed rows, shifted and masked to their 4-bit fields, transposed. -/
def fieldT (a1 : IVec S512x11008 32) : IVec S11008x4096 32 :=
  have v16 : IVec S4096x1 32 := rowIx
  have v10 : IVec S4096 32 := shiftAmt
  have v17 : IVec S4096x11008 32 := Host.gather gather_S512x11008_S4096x1_S4096x11008_1_0_n_n_0_1_111008 a1 v16
  have v18 : IVec S4096x1 32 := broadcastInDim S4096x1 ![0] bcast_S4096_S4096x1_0 v10
  have v19 : IVec S4096x11008 32 := broadcastInDim S4096x11008 ![0, 1] bcast_S4096x1_S4096x11008_0_1 v18
  have v20 : IVec S4096x11008 32 := Host.shrsi v17 v19
  have c_7 : IVec S_ 32 := constantI S_ 32 15#32
  have v21 : IVec S4096x11008 32 := broadcastInDim S4096x11008 ![] bcast_S_S4096x11008 c_7
  have v22 : IVec S4096x11008 32 := andi v20 v21
  transpose S11008x4096 [1, 0] v22 transposes_S4096x11008_S11008x4096_1_0

/-- `%28`: (field − zero point) · scale. -/
def wRef (a1 : IVec S512x11008 32) (a2 a3 : FVec F S11008x1 .f32) : FVec F S11008x4096 .f32 :=
  have v23 : IVec S11008x4096 32 := fieldT a1
  have v24 : FVec F S11008x4096 .f32 := sitofp .f32 v23
  have v25 : FVec F S11008x4096 .f32 := broadcastInDim S11008x4096 ![0, 1] bcast_S11008x1_S11008x4096_0_1 a3
  have v26 : FVec F S11008x4096 .f32 := subf v24 v25
  have v27 : FVec F S11008x4096 .f32 := broadcastInDim S11008x4096 ![0, 1] bcast_S11008x1_S11008x4096_0_1 a2
  mulf v26 v27

/-- The reference's result `%29` as a term of the contents of `%arg0 … %arg3`: x contracted with the dequantised
    matrix over the 4096 input channels. -/
def refVal (a0 : FVec F S4x2048x4096 .f32) (a1 : IVec S512x11008 32) (a2 a3 : FVec F S11008x1 .f32) :
    FVec F S4x2048x11008 .f32 :=
  Host.dotGeneral dot_S4x2048x4096_S11008x4096_S4x2048x11008_2_1_01_0_n_n none a0 (wRef a1 a2 a3)

end Cert.ReferenceIdeal.Hand

end
-- ==== Proof.RefRun.lean ====
/-
  The reference program's run. Its @main is a straight line of seventy-five host operations once the two outlined
  integer functions (floor division, floored remainder) and the select function each of them calls are written out at
  their calls over the calls' own buffers; every fair execution terminates, the result buffer ends at the term
  `refVal` of the four arguments' launch contents, and the arguments end unchanged.
-/
import proofs.«414396_j90658169684410_3_alg».proof.Proof.RefTerm
import Idealize.ShloMosaic.Lib.StableHlo.Run

noncomputable section

namespace Cert.ReferenceIdeal.Hand

open Cert.ReferenceIdeal Cert.ReferenceIdeal.Facts₀
open Idealize.ShloMosaic Idealize.ShloMosaic.TcCoe Idealize.SL.Sem Idealize.ShloMosaic.StableHlo

variable {F : FTy → Type} [FloatOps F] [Facts]

/-- @main's operations in order, the calls written out: after the row numbers times four and the divisor 32,
    the floor division's sixteen operations and its select into the first call's buffers; after the same product
    and divisor again, the floored remainder's four, its scalar select, and sixteen more into the second call's;
    then @main's own twenty-eight. -/
abbrev ops : List (HloOp τ sig (Elt F)) :=
  [ nullary main_v0 (iotaInDim S4096 32 0),
    nullary main_c (constantI S_ 32 4#32),
    unary main_c main_v1 (broadcastInDim S4096 ![] bcast_S_S4096 : (⟨S_, .i32⟩ : BufTy).Contents (Elt F) → (⟨S4096, .i32⟩ : BufTy).Contents (Elt F)),
    binary main_v0 main_v1 main_v2 (muli : (⟨S4096, .i32⟩ : BufTy).Contents (Elt F) → (⟨S4096, .i32⟩ : BufTy).Contents (Elt F) → (⟨S4096, .i32⟩ : BufTy).Contents (Elt F)),
    nullary main_c_0 (constantI S_ 32 32#32),
    TRef.unary (.of main_c_0 : TRef sig ⟨S_, .i32⟩) main_call0.v0 id,
    TRef.unary main_call0.v0 main_call0.v1 (broadcastInDim S4096 ![] bcast_S_S4096),
    TRef.binary (.of main_v2 : TRef sig ⟨S4096, .i32⟩) main_call0.v1 main_call0.v2 Host.divsi,
    TRef.unary (.of main_v2 : TRef sig ⟨S4096, .i32⟩) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v2 : TRef sig ⟨S4096, .i32⟩) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_1 (constantI S_ 32 4#32),
    unary main_c_1 main_v4 (broadcastInDim S4096 ![] bcast_S_S4096 : (⟨S_, .i32⟩ : BufTy).Contents (Elt F) → (⟨S4096, .i32⟩ : BufTy).Contents (Elt F)),
    binary main_v0 main_v4 main_v5 (muli : (⟨S4096, .i32⟩ : BufTy).Contents (Elt F) → (⟨S4096, .i32⟩ : BufTy).Contents (Elt F) → (⟨S4096, .i32⟩ : BufTy).Contents (Elt F)),
    nullary main_c_2 (constantI S_ 32 32#32),
    TRef.unary (.of main_c_2 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S4096 ![] bcast_S_S4096),
    TRef.binary (.of main_v5 : TRef sig ⟨S4096, .i32⟩) main_call1.v3 main_call1.v4 Host.remsi,
    TRef.nullary main_call1.c_1 (constantI S_ 32 0#32),
    TRef.unary main_call1.c_1 main_call1.v5 (broadcastInDim S4096 ![] bcast_S_S4096),
    TRef.binary main_call1.v4 main_call1.v5 main_call1.v6 (cmpi .ne),
    TRef.nullary main_call1.c_2 (constantI S_ 32 0#32),
    TRef.unary main_call1.c_2 main_call1.v7 (broadcastInDim S4096 ![] bcast_S_S4096),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S4096 ![] bcast_S_S4096),
    TRef.binary main_call1.v8 main_call1.v10 main_call1.v11 (cmpi .ne),
    TRef.binary main_call1.v11 main_call1.v6 main_call1.v12 andi,
    TRef.unary main_call1.call0.v0 main_call1.v13 (broadcastInDim S4096 ![] bcast_S_S4096),
    TRef.binary main_call1.v4 main_call1.v13 main_call1.v14 addi,
    TRef.ternary main_call1.v12 main_call1.v14 main_call1.v4 main_call1.v15 select,
    nullary main_c_3 (constantI S_ 32 32#32),
    unary main_c_3 main_v7 (broadcastInDim S4096 ![] bcast_S_S4096 : (⟨S_, .i32⟩ : BufTy).Contents (Elt F) → (⟨S4096, .i32⟩ : BufTy).Contents (Elt F)),
    binary main_v7 main_v6 main_v8 (subi : (⟨S4096, .i32⟩ : BufTy).Contents (Elt F) → (⟨S4096, .i32⟩ : BufTy).Contents (Elt F) → (⟨S4096, .i32⟩ : BufTy).Contents (Elt F)),
    nullary main_c_4 (constantI S_ 32 4#32),
    unary main_c_4 main_v9 (broadcastInDim S4096 ![] bcast_S_S4096 : (⟨S_, .i32⟩ : BufTy).Contents (Elt F) → (⟨S4096, .i32⟩ : BufTy).Contents (Elt F)),
    binary main_v8 main_v9 main_v10 (subi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v11 (broadcastInDim S4096 ![] bcast_S_S4096 : (⟨S_, .i32⟩ : BufTy).Contents (Elt F) → (⟨S4096, .i32⟩ : BufTy).Contents (Elt F)),
    binary main_v3 main_v11 main_v12 (cmpi .slt : (⟨S4096, .i32⟩ : BufTy).Contents (Elt F) → (⟨S4096, .i32⟩ : BufTy).Contents (Elt F) → (⟨S4096, .i1⟩ : BufTy).Contents (Elt F)),
    nullary main_c_6 (constantI S_ 32 512#32),
    unary main_c_6 main_v13 (broadcastInDim S4096 ![] bcast_S_S4096 : (⟨S_, .i32⟩ : BufTy).Contents (Elt F) → (⟨S4096, .i32⟩ : BufTy).Contents (Elt F)),
    binary main_v3 main_v13 main_v14 (addi : (⟨S4096, .i32⟩ : BufTy).Contents (Elt F) → (⟨S4096, .i32⟩ : BufTy).Contents (Elt F) → (⟨S4096, .i32⟩ : BufTy).Contents (Elt F)),
    ternary main_v12 main_v14 main_v3 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v15 main_v16 (broadcastInDim S4096x1 ![0] bcast_S4096_S4096x1_0 : (⟨S4096, .i32⟩ : BufTy).Contents (Elt F) → (⟨S4096x1, .i32⟩ : BufTy).Contents (Elt F)),
    binary main_arg1 main_v16 main_v17 ((fun x i => Host.gather gather_S512x11008_S4096x1_S4096x11008_1_0_n_n_0_1_111008 x i) : (⟨S512x11008, .i32⟩ : BufTy).Contents (Elt F) → (⟨S4096x1, .i32⟩ : BufTy).Contents (Elt F) → (⟨S4096x11008, .i32⟩ : BufTy).Contents (Elt F)),
    unary main_v10 main_v18 (broadcastInDim S4096x1 ![0] bcast_S4096_S4096x1_0 : (⟨S4096, .i32⟩ : BufTy).Contents (Elt F) → (⟨S4096x1, .i32⟩ : BufTy).Contents (Elt F)),
    unary main_v18 main_v19 (broadcastInDim S4096x11008 ![0, 1] bcast_S4096x1_S4096x11008_0_1 : (⟨S4096x1, .i32⟩ : BufTy).Contents (Elt F) → (⟨S4096x11008, .i32⟩ : BufTy).Contents (Elt F)),
    binary main_v17 main_v19 main_v20 (Host.shrsi : (⟨S4096x11008, .i32⟩ : BufTy).Contents (Elt F) → (⟨S4096x11008, .i32⟩ : BufTy).Contents (Elt F) → (⟨S4096x11008, .i32⟩ : BufTy).Contents (Elt F)),
    nullary main_c_7 (constantI S_ 32 15#32),
    unary main_c_7 main_v21 (broadcastInDim S4096x11008 ![] bcast_S_S4096x11008 : (⟨S_, .i32⟩ : BufTy).Contents (Elt F) → (⟨S4096x11008, .i32⟩ : BufTy).Contents (Elt F)),
    binary main_v20 main_v21 main_v22 (andi : (⟨S4096x11008, .i32⟩ : BufTy).Contents (Elt F) → (⟨S4096x11008, .i32⟩ : BufTy).Contents (Elt F) → (⟨S4096x11008, .i32⟩ : BufTy).Contents (Elt F)),
    unary main_v22 main_v23 ((transpose S11008x4096 [1, 0] · transposes_S4096x11008_S11008x4096_1_0) : (⟨S4096x11008, .i32⟩ : BufTy).Contents (Elt F) → (⟨S11008x4096, .i32⟩ : BufTy).Contents (Elt F)),
    unary main_v23 main_v24 (sitofp .f32 : (⟨S11008x4096, .i32⟩ : BufTy).Contents (Elt F) → (⟨S11008x4096, .f32⟩ : BufTy).Contents (Elt F)),
    unary main_arg3 main_v25 (broadcastInDim S11008x4096 ![0, 1] bcast_S11008x1_S11008x4096_0_1 : (⟨S11008x1, .f32⟩ : BufTy).Contents (Elt F) → (⟨S11008x4096, .f32⟩ : BufTy).Contents (Elt F)),
    binary main_v24 main_v25 main_v26 (subf : (⟨S11008x4096, .f32⟩ : BufTy).Contents (Elt F) → (⟨S11008x4096, .f32⟩ : BufTy).Contents (Elt F) → (⟨S11008x4096, .f32⟩ : BufTy).Contents (Elt F)),
    unary main_arg2 main_v27 (broadcastInDim S11008x4096 ![0, 1] bcast_S11008x1_S11008x4096_0_1 : (⟨S11008x1, .f32⟩ : BufTy).Contents (Elt F) → (⟨S11008x4096, .f32⟩ : BufTy).Contents (Elt F)),
    binary main_v26 main_v27 main_v28 (mulf : (⟨S11008x4096, .f32⟩ : BufTy).Contents (Elt F) → (⟨S11008x4096, .f32⟩ : BufTy).Contents (Elt F) → (⟨S11008x4096, .f32⟩ : BufTy).Contents (Elt F)),
    binary main_arg0 main_v28 main_v29 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)) ]

-- seventy-five binds re-associated, one level of recursion per statement
set_option maxRecDepth 4096 in
set_option maxHeartbeats 4000000 in
/-- @main is that straight line: the outlined functions' definitions unfolded at their calls and sequencing re-associated,
    the two sides are one chain of steps. -/
theorem main_eq (c : Dev nD) : main (F := F) c = seq ops := by
  simp only [main, fn_floor_divide.body, fn_where.body, fn_remainder.body, fn_where_0.body, seq, bind_assoc, pure_bind]

set_option maxRecDepth 16384 in
set_option maxHeartbeats 4000000 in
/-- The fold of the operations at the result buffer is `refVal` of the arguments' contents, by computation: each
    operation's result read at the buffer it writes, the typed references' transports the identity. -/
theorem out_eq (V : Valuation τ sig (Elt F)) :
    after ops V (main_v29 : DevRef τ sig)
      = refVal (V (main_arg0 : DevRef τ sig)) (V (main_arg1 : DevRef τ sig)) (V (main_arg2 : DevRef τ sig))
          (V (main_arg3 : DevRef τ sig)) := by
  after_results_simp
  rfl

set_option maxRecDepth 16384 in
theorem arg0_eq (V : Valuation τ sig (Elt F)) :
    after ops V (main_arg0 : DevRef τ sig) = V (main_arg0 : DevRef τ sig) := by
  simp only [after_cons, after_nil]
  rfl

set_option maxRecDepth 16384 in
theorem arg1_eq (V : Valuation τ sig (Elt F)) :
    after ops V (main_arg1 : DevRef τ sig) = V (main_arg1 : DevRef τ sig) := by
  simp only [after_cons, after_nil]
  rfl

set_option maxRecDepth 16384 in
theorem arg2_eq (V : Valuation τ sig (Elt F)) :
    after ops V (main_arg2 : DevRef τ sig) = V (main_arg2 : DevRef τ sig) := by
  simp only [after_cons, after_nil]
  rfl

set_option maxRecDepth 16384 in
theorem arg3_eq (V : Valuation τ sig (Elt F)) :
    after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., binary_bufs_sub .., binary_bufs_sub ..⟩

/-- From any memory with zero counters every weakly fair execution of @main terminates, and every buffer ends at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run: the result buffer ends at `refVal` of the arguments' launch contents, the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v29) = refVal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v29).trans (out_eq _), (h c main_arg0).trans (arg0_eq _),
      (h c main_arg1).trans (arg1_eq _), (h c main_arg2).trans (arg2_eq _), (h c main_arg3).trans (arg3_eq _)⟩)
    (run_main m ρ)

end Cert.ReferenceIdeal.Hand

end
-- ==== Proof.RefInt.lean ====
/-
  Integer facts of the reference's index arithmetic, on single 32-bit words: for an input channel i < 4096,
  4·i floor-divided by 32 is i div 8, 4·i modulo 32 is 4·(i mod 8), and the shift amount 32 − 4·(i mod 8) − 4 is
  28 − 4·(i mod 8), below 32; the word index is never negative, so the negative-index wrap leaves it alone.
-/
import Idealize.ShloMosaic.PureOps
import Idealize.ShloMosaic.PureOps.Ideal
import Idealize.ShloMosaic.Lib.ValueIdx

namespace Cert.ReferenceIdeal.Hand

open Idealize.ShloMosaic

/-- The sign of a word as a word: 0, −1 or 1. -/
def sgn (x : BitVec 32) : BitVec 32 := if x = 0 then 0 else if x.msb then -1 else 1

/-- Floor division as the reference spells it: the quotient rounded toward zero, less one when the signs of the
    operands differ and the remainder is not zero. -/
def fdiv (a d : BitVec 32) : BitVec 32 :=
  Scalar.select (IntOp.andi (IntOp.cmpi .ne (sgn a) (sgn d)) (IntOp.cmpi .ne (IntOp.remsi .host a d) 0#32))
    (IntOp.subi (IntOp.divsi .host a d) 1#32) (IntOp.divsi .host a d)

/-- The divisor the reference's remainder uses: 1 in place of 0. -/
def fdivisor (d : BitVec 32) : BitVec 32 := Scalar.select (IntOp.cmpi .eq d 0#32) 1#32 d

/-- Floor remainder as the reference spells it: the remainder of the dividend's sign, plus the divisor when it is
    not zero and its sign differs from the divisor's. -/
def fmod (a d : BitVec 32) : BitVec 32 :=
  Scalar.select
    (IntOp.andi (IntOp.cmpi .ne (IntOp.cmpi .slt (IntOp.remsi .host a (fdivisor d)) 0#32) (IntOp.cmpi .slt (fdivisor d) 0#32))
      (IntOp.cmpi .ne (IntOp.remsi .host a (fdivisor d)) 0#32))
    (IntOp.addi (IntOp.remsi .host a (fdivisor d)) (fdivisor d)) (IntOp.remsi .host a (fdivisor d))

/-- The negative-index wrap: an index below zero is read from the end. -/
def wrap (j n : BitVec 32) : BitVec 32 := Scalar.select (IntOp.cmpi .slt j 0#32) (IntOp.addi j n) j

theorem toNat_ofNat_lt {n : Nat} (h : n < 2 ^ 32) : (BitVec.ofNat 32 n).toNat = n := by
  rw [BitVec.toNat_ofNat]; exact Nat.mod_eq_of_lt h

theorem mul4 {i : Nat} (h : i < 4096) : IntOp.muli (BitVec.ofNat 32 i) 4#32 = BitVec.ofNat 32 (4 * i) := by
  apply BitVec.eq_of_toNat_eq
  simp only [IntOp.muli, BitVec.toNat_mul, BitVec.toNat_ofNat]
  omega

theorem msb_ofNat_small {n : Nat} (h : n < 2 ^ 31) : (BitVec.ofNat 32 n).msb = false := by
  rw [BitVec.msb_eq_false_iff_two_mul_lt, toNat_ofNat_lt (by omega)]
  omega

theorem not_corner {n : Nat} (h : n < 2 ^ 31) : ¬ IntOp.SDivCorner (BitVec.ofNat 32 n) 32#32 := by
  intro hc
  rcases hc with hc | ⟨_, hc⟩
  · exact absurd hc (by decide)
  · exact absurd hc (by decide)

theorem divsi32 {n : Nat} (h : n < 2 ^ 31) : IntOp.divsi .host (BitVec.ofNat 32 n) 32#32 = BitVec.ofNat 32 (n / 32) := by
  unfold IntOp.divsi
  rw [if_neg (not_corner h)]
  apply BitVec.eq_of_toNat_eq
  rw [BitVec.sdiv_eq, msb_ofNat_small h]
  have : (32#32).msb = false := by decide
  rw [this]
  simp only [BitVec.udiv_eq, BitVec.toNat_udiv, BitVec.toNat_ofNat, Nat.reducePow, Nat.reduceMod]
  omega

theorem remsi32 {n : Nat} (h : n < 2 ^ 31) : IntOp.remsi .host (BitVec.ofNat 32 n) 32#32 = BitVec.ofNat 32 (n % 32) := by
  unfold IntOp.remsi
  rw [if_neg (not_corner h)]
  apply BitVec.eq_of_toNat_eq
  rw [BitVec.srem_eq, msb_ofNat_small h]
  have : (32#32).msb = false := by decide
  rw [this]
  simp only [BitVec.umod_eq, BitVec.toNat_umod, BitVec.toNat_ofNat, Nat.reducePow, Nat.reduceMod]
  omega

theorem sgn32 : sgn 32#32 = 1#32 := by decide

theorem sgn_ofNat_pos {n : Nat} (h0 : 0 < n) (h : n < 2 ^ 31) : sgn (BitVec.ofNat 32 n) = 1#32 := by
  unfold sgn
  have hne : BitVec.ofNat 32 n ≠ 0 := by
    intro he
    have := congrArg BitVec.toNat he
    rw [toNat_ofNat_lt (by omega)] at this
    simp at this
    omega
  rw [if_neg hne, msb_ofNat_small h]
  rfl

/-- 4·i floor-divided by 32 is i div 8. -/
theorem fdiv32 {i : Nat} (h : i < 4096) : fdiv (BitVec.ofNat 32 (4 * i)) 32#32 = BitVec.ofNat 32 (i / 8) := by
  have hn : 4 * i < 2 ^ 31 := by omega
  unfold fdiv
  rw [divsi32 hn, remsi32 hn, sgn32]
  have hq : 4 * i / 32 = i / 8 := by omega
  rw [hq]
  by_cases hr : 4 * i % 32 = 0
  · rw [hr]
    have : IntOp.cmpi .ne (BitVec.ofNat 32 0) 0#32 = 0#1 := by decide
    rw [this]
    have : ∀ b : BitVec 1, IntOp.andi b 0#1 = 0#1 := by decide
    rw [this]
    exact if_neg (by decide)
  · have h0 : 0 < 4 * i := by omega
    rw [sgn_ofNat_pos h0 hn]
    have : IntOp.cmpi .ne 1#32 1#32 = 0#1 := by decide
    rw [this]
    have : ∀ b : BitVec 1, IntOp.andi 0#1 b = 0#1 := by decide
    rw [this]
    exact if_neg (by decide)

theorem fdivisor32 : fdivisor 32#32 = 32#32 := by decide

theorem slt_zero_ofNat {n : Nat} (h : n < 2 ^ 31) : IntOp.cmpi .slt (BitVec.ofNat 32 n) 0#32 = 0#1 := by
  unfold IntOp.cmpi
  have : (BitVec.ofNat 32 n).slt 0#32 = false := by
    rw [BitVec.slt_eq_decide, BitVec.toInt_eq_toNat_of_msb (msb_ofNat_small h)]
    simp
    omega
  simp only [this]
  rfl

/-- 4·i modulo 32, floored, is 4·(i mod 8). -/
theorem fmod32 {i : Nat} (h : i < 4096) : fmod (BitVec.ofNat 32 (4 * i)) 32#32 = BitVec.ofNat 32 (4 * (i % 8)) := by
  have hn : 4 * i < 2 ^ 31 := by omega
  unfold fmod
  rw [fdivisor32, remsi32 hn]
  have hq : 4 * i % 32 = 4 * (i % 8) := by omega
  rw [hq, slt_zero_ofNat (by omega)]
  have : IntOp.cmpi .ne 0#1 (IntOp.cmpi .slt 32#32 0#32) = 0#1 := by decide
  rw [this]
  have : ∀ b : BitVec 1, IntOp.andi 0#1 b = 0#1 := by decide
  rw [this]
  exact if_neg (by decide)

/-- The shift amount 32 − 4·(i mod 8) − 4 is 28 − 4·(i mod 8). -/
theorem shift32 (i : Nat) :
    IntOp.subi (IntOp.subi 32#32 (BitVec.ofNat 32 (4 * (i % 8)))) 4#32 = BitVec.ofNat 32 (28 - 4 * (i % 8)) := by
  apply BitVec.eq_of_toNat_eq
  simp only [IntOp.subi, BitVec.toNat_sub, BitVec.toNat_ofNat, Nat.reducePow, Nat.reduceMod]
  omega

theorem shift32_lt (i : Nat) : (BitVec.ofNat 32 (28 - 4 * (i % 8))).toNat < 32 := by
  rw [toNat_ofNat_lt (by omega)]
  omega

/-- A word index below 2³¹ is not negative: the wrap leaves it alone. -/
theorem wrap_ofNat {j : Nat} (h : j < 2 ^ 31) (n : BitVec 32) : wrap (BitVec.ofNat 32 j) n = BitVec.ofNat 32 j := by
  unfold wrap
  rw [slt_zero_ofNat h]
  exact if_neg (by decide)

/-- A word index below 2³¹ read signed is itself. -/
theorem toInt_toNat_ofNat {j : Nat} (h : j < 2 ^ 31) : (BitVec.ofNat 32 j).toInt.toNat = j := by
  rw [BitVec.toInt_eq_toNat_of_msb (msb_ofNat_small h), toNat_ofNat_lt (by omega)]
  simp

/-- The arithmetic shift by an amount below the width. -/
theorem shrsi_lt (x y : BitVec 32) (h : y.toNat < 32) : IntOp.shrsi .host x y = x.sshiftRight' y := by
  unfold IntOp.shrsi
  exact if_pos h

end Cert.ReferenceIdeal.Hand
-- ==== Proof.RefRead.lean ====
/-
  The reference's result read at an index: x contracted over the 4096 input channels with the dequantised weight,
  whose entry for input channel k and output channel o is (field − zero point) · scale, the field being the packed
  word of row k div 8 shifted right by 28 − 4·(k mod 8) and masked with 15.
-/
import proofs.«414396_j90658169684410_3_alg».proof.ReferenceIdeal
import proofs.«414396_j90658169684410_3_alg».proof.Proof.RefTerm
import proofs.«414396_j90658169684410_3_alg».proof.Proof.RefInt
import proofs.«414396_j90658169684410_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Hand

open Cert.ReferenceIdeal Cert.ReferenceIdeal.Facts₀
open Idealize.ShloMosaic Idealize.ShloMosaic.ValueIdx

variable [Facts]

/-! ## The contraction at an index -/

theorem dot_lhs_0 (j : S4x2048x11008.Idx) (k : dot_S4x2048x4096_S11008x4096_S4x2048x11008_2_1_01_0_n_n.contr.Idx) :
    (dot_S4x2048x4096_S11008x4096_S4x2048x11008_2_1_01_0_n_n.lhsIdx j k 0).val = (j 0).val := by
  simp [DotDims.lhsIdx, dot_S4x2048x4096_S11008x4096_S4x2048x11008_2_1_01_0_n_n]; rfl

theorem dot_lhs_1 (j : S4x2048x11008.Idx) (k : dot_S4x2048x4096_S11008x4096_S4x2048x11008_2_1_01_0_n_n.contr.Idx) :
    (dot_S4x2048x4096_S11008x4096_S4x2048x11008_2_1_01_0_n_n.lhsIdx j k 1).val = (j 1).val := by
  simp [DotDims.lhsIdx, dot_S4x2048x4096_S11008x4096_S4x2048x11008_2_1_01_0_n_n]; rfl

theorem dot_rhs_0 (j : S4x2048x11008.Idx) (k : dot_S4x2048x4096_S11008x4096_S4x2048x11008_2_1_01_0_n_n.contr.Idx) :
    (dot_S4x2048x4096_S11008x4096_S4x2048x11008_2_1_01_0_n_n.rhsIdx j k 0).val = (j 2).val := by
  simp [DotDims.rhsIdx, dot_S4x2048x4096_S11008x4096_S4x2048x11008_2_1_01_0_n_n]; rfl

/-- The contraction read at (b, s, o): the sum over the input channels of x at (b, s, k) times the weight at (o, k). -/
theorem dot_at (x : FVec Ideal S4x2048x4096 .f32) (w : FVec Ideal S11008x4096 .f32) (b : Fin 4) (s : Fin 2048) (o : Fin 11008) :
    Host.dotGeneral dot_S4x2048x4096_S11008x4096_S4x2048x11008_2_1_01_0_n_n none x w (ix3 b s o)
      = ∑ k : Fin 4096, x (ix3 b s k) * w (ix2 o k) := by
  show FloatOps.dotGeneral _ none _ x w (ix3 b s o) = _
  rw [Ideal.dotGeneral_apply,
    ← Equiv.sum_comp (contrEquiv1 dot_S4x2048x4096_S11008x4096_S4x2048x11008_2_1_01_0_n_n 4096 rfl rfl).symm]
  refine Finset.sum_congr rfl fun k _ => ?_
  have ck := contrEquiv1_symm_val dot_S4x2048x4096_S11008x4096_S4x2048x11008_2_1_01_0_n_n 4096 rfl rfl k
  have hl : dot_S4x2048x4096_S11008x4096_S4x2048x11008_2_1_01_0_n_n.lhsIdx (ix3 b s o)
      ((contrEquiv1 dot_S4x2048x4096_S11008x4096_S4x2048x11008_2_1_01_0_n_n 4096 rfl rfl).symm k) = ix3 b s k := by
    funext ax; apply Fin.ext
    match ax with
    | ⟨0, _⟩ => exact dot_lhs_0 _ _
    | ⟨1, _⟩ => exact dot_lhs_1 _ _
    | ⟨2, _⟩ =>
      exact (DotDims.lhsIdx_val_of_single dot_S4x2048x4096_S11008x4096_S4x2048x11008_2_1_01_0_n_n (cl := 2) rfl _ _).trans ck
  have hr : dot_S4x2048x4096_S11008x4096_S4x2048x11008_2_1_01_0_n_n.rhsIdx (ix3 b s o)
      ((contrEquiv1 dot_S4x2048x4096_S11008x4096_S4x2048x11008_2_1_01_0_n_n 4096 rfl rfl).symm k) = ix2 o k := by
    funext ax; apply Fin.ext
    match ax with
    | ⟨0, _⟩ => exact dot_rhs_0 _ _
    | ⟨1, _⟩ =>
      exact (DotDims.rhsIdx_val_of_single dot_S4x2048x4096_S11008x4096_S4x2048x11008_2_1_01_0_n_n (cr := 1) rfl _ _).trans ck
  rw [hl, hr]

/-! ## The gathered rows at an index -/

theorem gather_idx_0 (idx : IVec S4096x1 32) (k : Fin 4096) (o : Fin 11008) :
    (gather_S512x11008_S4096x1_S4096x11008_1_0_n_n_0_1_111008.operandIdx (ix2 k o) idx 0).val
      = min (idx (ix2 k (0 : Fin 1))).toInt.toNat 511 := by
  show gather_S512x11008_S4096x1_S4096x11008_1_0_n_n_0_1_111008.start (ix2 k o) idx 0
    + gather_S512x11008_S4096x1_S4096x11008_1_0_n_n_0_1_111008.batchCoord (ix2 k o) 0
    + gather_S512x11008_S4096x1_S4096x11008_1_0_n_n_0_1_111008.offCoord (ix2 k o) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S512x11008_S4096x1_S4096x11008_1_0_n_n_0_1_111008.startIndexMap from
    List.mem_singleton.mpr rfl)]
  have hsi : gather_S512x11008_S4096x1_S4096x11008_1_0_n_n_0_1_111008.siIdx (ix2 k o)
      ⟨List.idxOf (0 : Fin 2) gather_S512x11008_S4096x1_S4096x11008_1_0_n_n_0_1_111008.startIndexMap,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

theorem gather_idx_1 (idx : IVec S4096x1 32) (k : Fin 4096) (o : Fin 11008) :
    (gather_S512x11008_S4096x1_S4096x11008_1_0_n_n_0_1_111008.operandIdx (ix2 k o) idx 1).val = o.val := by
  show gather_S512x11008_S4096x1_S4096x11008_1_0_n_n_0_1_111008.start (ix2 k o) idx 1
    + gather_S512x11008_S4096x1_S4096x11008_1_0_n_n_0_1_111008.batchCoord (ix2 k o) 1
    + gather_S512x11008_S4096x1_S4096x11008_1_0_n_n_0_1_111008.offCoord (ix2 k o) 1 = _
  rw [GatherDims.batchCoord_eq_zero _ _ _ List.not_mem_nil]
  unfold GatherDims.start
  rw [dif_neg (show ¬ (1 : Fin 2) ∈ gather_S512x11008_S4096x1_S4096x11008_1_0_n_n_0_1_111008.startIndexMap from
    (by decide : ¬ (1 : Fin 2) ∈ ([0] : List (Fin 2))))]
  simp only [Nat.add_zero, Nat.zero_add]
  unfold GatherDims.offCoord
  rw [dif_pos (show (1 : Fin 2) ∈ gather_S512x11008_S4096x1_S4096x11008_1_0_n_n_0_1_111008.sKept from
    (GatherDims.mem_sKept _ _).mpr ⟨(by decide : ¬ (1 : Fin 2) ∈ ([0] : List (Fin 2))), List.not_mem_nil⟩)]
  rfl

/-- The gather read at (k, o): the packed array at the row the start index names, read signed and clamped into
    0 … 511, column o. -/
theorem gather_at (p : S512x11008.Idx → BitVec 32) (idx : IVec S4096x1 32) (k : Fin 4096) (o : Fin 11008)
    (r : Fin 512) (hr : min (idx (ix2 k (0 : Fin 1))).toInt.toNat 511 = r.val) :
    Host.gather gather_S512x11008_S4096x1_S4096x11008_1_0_n_n_0_1_111008 p idx (ix2 k o) = p (ix2 r o) := by
  unfold Host.gather
  refine congrArg p (funext fun a => Fin.ext ?_)
  match a with
  | ⟨0, _⟩ => exact (gather_idx_0 idx k o).trans hr
  | ⟨1, _⟩ => exact gather_idx_1 idx k o

/-! ## The field and the weight at an index -/

/-- The shifted and masked gathered word at (k, o), given the row number and the shift amount of input channel k. -/
theorem word_at (p : S512x11008.Idx → BitVec 32) (idx : IVec S4096x1 32) (sh : IVec S4096 32) (k : Fin 4096) (o : Fin 11008)
    (hidx : idx (ix2 k (0 : Fin 1)) = BitVec.ofNat 32 (k.val / 8))
    (hsh : sh (ix1 k) = BitVec.ofNat 32 (28 - 4 * (k.val % 8))) :
    andi
      (Host.shrsi
        (Host.gather gather_S512x11008_S4096x1_S4096x11008_1_0_n_n_0_1_111008 p idx)
        (broadcastInDim S4096x11008 ![0, 1] bcast_S4096x1_S4096x11008_0_1
          (broadcastInDim S4096x1 ![0] bcast_S4096_S4096x1_0 sh)))
      (broadcastInDim S4096x11008 ![] bcast_S_S4096x11008 (constantI S_ 32 15#32)) (ix2 k o)
      = Cert.Spec.nib p k o := by
  have hcol : ∀ v : IVec S4096 32, broadcastInDim S4096x1 ![0] bcast_S4096_S4096x1_0 v (ix2 k (0 : Fin 1)) = v (ix1 k) :=
    fun v => broadcastInDim_apply _ _ v _ _ fun a => match a with | ⟨0, _⟩ => rfl
  have hfull : ∀ v : IVec S4096x1 32,
      broadcastInDim S4096x11008 ![0, 1] bcast_S4096x1_S4096x11008_0_1 v (ix2 k o) = v (ix2 k (0 : Fin 1)) :=
    fun v => broadcastInDim_apply _ _ v _ _ fun a => match a with | ⟨0, _⟩ => rfl | ⟨1, _⟩ => rfl
  show IntOp.andi (IntOp.shrsi .host
      (Host.gather gather_S512x11008_S4096x1_S4096x11008_1_0_n_n_0_1_111008 p idx (ix2 k o))
      (broadcastInDim S4096x11008 ![0, 1] bcast_S4096x1_S4096x11008_0_1
        (broadcastInDim S4096x1 ![0] bcast_S4096_S4096x1_0 sh) (ix2 k o))) 15#32 = _
  have hk : k.val / 8 < 2 ^ 31 := by have := k.isLt; omega
  have hr : min (idx (ix2 k (0 : Fin 1))).toInt.toNat 511
      = (⟨k.val / 8, by have := k.isLt; omega⟩ : Fin 512).val := by
    rw [hidx, toInt_toNat_ofNat hk]
    show min (k.val / 8) 511 = k.val / 8
    have := k.isLt
    omega
  rw [gather_at p _ k o _ hr, hfull, hcol, hsh, shrsi_lt _ _ (shift32_lt k.val)]
  rfl

/-! ## The reference's stages at an index -/

/-- The packed row of input channel k is k div 8. -/
theorem rowQ_at (k : Fin 4096) : rowQ (ix1 k) = BitVec.ofNat 32 (k.val / 8) := by
  show fdiv (IntOp.muli (BitVec.ofNat 32 k.val) 4#32) 32#32 = _
  rw [mul4 k.isLt, fdiv32 k.isLt]

/-- The bit offset of input channel k within its word is 4·(k mod 8). -/
theorem rowR_at (k : Fin 4096) : rowR (ix1 k) = BitVec.ofNat 32 (4 * (k.val % 8)) := by
  show fmod (IntOp.muli (BitVec.ofNat 32 k.val) 4#32) 32#32 = _
  rw [mul4 k.isLt, fmod32 k.isLt]

/-- The shift of input channel k is 28 − 4·(k mod 8). -/
theorem shiftAmt_at (k : Fin 4096) : shiftAmt (ix1 k) = BitVec.ofNat 32 (28 - 4 * (k.val % 8)) := by
  show IntOp.subi (IntOp.subi 32#32 (rowR (ix1 k))) 4#32 = _
  rw [rowR_at, shift32]

/-- The start index of input channel k is k div 8: never negative, the wrap leaves it alone. -/
theorem rowIx_at (k : Fin 4096) : rowIx (ix2 k (0 : Fin 1)) = BitVec.ofNat 32 (k.val / 8) := by
  have hcol : ∀ v : IVec S4096 32, broadcastInDim S4096x1 ![0] bcast_S4096_S4096x1_0 v (ix2 k (0 : Fin 1)) = v (ix1 k) :=
    fun v => broadcastInDim_apply _ _ v _ _ fun a => match a with | ⟨0, _⟩ => rfl
  unfold rowIx
  rw [hcol]
  show wrap (rowQ (ix1 k)) 512#32 = _
  rw [rowQ_at, wrap_ofNat (by have := k.isLt; omega)]

/-- The transposed table of fields at (o, k) is the 4-bit field of input channel k, output channel o. -/
theorem fieldT_at (p : IVec S512x11008 32) (k : Fin 4096) (o : Fin 11008) : fieldT p (ix2 o k) = Cert.Spec.nib p k o := by
  unfold fieldT
  exact (transpose_ix2_apply _ _ o k).trans (word_at p rowIx shiftAmt k o (rowIx_at k) (shiftAmt_at k))

/-- The dequantised matrix at (o, k) is the dequantised weight of input channel k, output channel o. -/
theorem wRef_at (p : IVec S512x11008 32) (sc zp : FVec Ideal S11008x1 .f32) (k : Fin 4096) (o : Fin 11008) :
    wRef (F := Ideal) p sc zp (ix2 o k) = Cert.Spec.wq p sc zp k o := by
  have hb : ∀ u : FVec Ideal S11008x1 .f32,
      broadcastInDim S11008x4096 ![0, 1] bcast_S11008x1_S11008x4096_0_1 u (ix2 o k) = u (ix2 o (0 : Fin 1)) :=
    fun u => broadcastInDim_apply _ _ u _ _ fun a => match a with | ⟨0, _⟩ => rfl | ⟨1, _⟩ => rfl
  unfold wRef
  rw [mulf_apply, subf_apply, hb, hb, sitofp_apply, fieldT_at]
  rfl

/-! ## The result -/

/-- The reference's result is x contracted with the dequantised weight over the input channels. -/
theorem refVal_eq (x : FVec Ideal S4x2048x4096 .f32) (p : IVec S512x11008 32) (sc zp : FVec Ideal S11008x1 .f32) :
    refVal (F := Ideal) x p sc zp = Cert.Spec.out x p sc zp := by
  funext i
  obtain ⟨b, s, o, rfl⟩ : ∃ (b : Fin 4) (s : Fin 2048) (o : Fin 11008), i = ix3 b s o := ⟨i 0, i 1, i 2, eq_ix3 i⟩
  unfold refVal
  rw [dot_at]
  show _ = ∑ k : Fin 4096, x (ix3 b s k) * Cert.Spec.wq p sc zp k o
  exact Finset.sum_congr rfl fun k _ => by rw [wRef_at]

end Cert.ReferenceIdeal.Hand

end
-- ==== Proof.lean ====
/-
  The certificate's five claims assembled. The kernel is two pipelined calls — a dequantisation of the 4-bit packed
  weight, then a blocked matrix product accumulated over eight steps of the contracted axis — between host reshapes;
  the reference unpacks the same fields with jnp integer arithmetic, dequantises and contracts in one product.
  Frames: the kernel's run (Proof/KLaunch.lean) at both instances, with the second call's output block left unnamed
  (at the word level the product's entries are not known to depend on their own column only, so the block's part past the
  array's end cannot be named away; the frame does not need it); the reference's run (Proof/RefRun.lean).
  Equivalence over the extended reals: the kernel's run with every window named gives the result array in closed form
  (Proof/K0Value.lean, Proof/K1Value.lean, Proof/KHost.lean, Proof/KValue.lean), the reference's run gives its composed
  term, read index by index (Proof/RefInt.lean, Proof/RefRead.lean); both are the one specification (Proof/Spec.lean):
  x contracted over the 4096 input channels with (field − zero point) · scale. The two sides differ only in how the sum
  is grouped (eight blocks of 512 against one sum of 4096) and in how the field's word and shift are computed
  (row r div 8 and 28 − 4·(r mod 8) from an iota and a mask, against jnp's floor-division and remainder).
-/
import proofs.«414396_j90658169684410_3_alg».proof.Defs
import proofs.«414396_j90658169684410_3_alg».proof.Proof.Gen.Kernel
import proofs.«414396_j90658169684410_3_alg».proof.Proof.Gen.KernelIdeal
import proofs.«414396_j90658169684410_3_alg».proof.Proof.Gen.ReferenceIdeal
import proofs.«414396_j90658169684410_3_alg».proof.Proof.Gen.Pre_finite_inputs
import proofs.«414396_j90658169684410_3_alg».proof.Proof.KArgs
import proofs.«414396_j90658169684410_3_alg».proof.Proof.KArgsBits
import proofs.«414396_j90658169684410_3_alg».proof.Proof.K0Body
import proofs.«414396_j90658169684410_3_alg».proof.Proof.K1Body
import proofs.«414396_j90658169684410_3_alg».proof.Proof.K1BodyI
import proofs.«414396_j90658169684410_3_alg».proof.Proof.K0BodyBits
import proofs.«414396_j90658169684410_3_alg».proof.Proof.K1BodyBits
import proofs.«414396_j90658169684410_3_alg».proof.Proof.KValue
import proofs.«414396_j90658169684410_3_alg».proof.Proof.RefRun
import proofs.«414396_j90658169684410_3_alg».proof.Proof.RefRead
import Idealize.ShloMosaic.Adequacy
import Idealize.ShloMosaic.Init
import Idealize.ShloMosaic.Lib.Pipeline.Cells

noncomputable section

namespace Cert.Proof

open Idealize.ShloMosaic Idealize.ShloMosaic.TcCoe Idealize.SL.Sem

/-- The word-level kernel runs and leaves its arguments: the launch with the second call's output block unnamed. -/
theorem frame_k : Cert.frame_Kernel (hKernel := Cert.Kernel.Gen.facts) (hPre_finite_inputs := Cert.Pre_finite_inputs.Gen.facts) :=
  fun m ρ _ => Cert.Kernel.Hand.frame_of_run (F := Bits) m ρ Cert.Kernel.Hand.fgtOut
    (fun c => Cert.Kernel.Hand.body_obligation0 _ c) (fun c => Cert.Kernel.Hand.body_obligation1_fgt _ c)

/-- So does the idealised kernel. -/
theorem frame_ki : Cert.frame_KernelIdeal (hKernelIdeal := Cert.KernelIdeal.Gen.facts) (hPre_finite_inputs := Cert.Pre_finite_inputs.Gen.facts) :=
  fun m ρ _ => Cert.KernelIdeal.Hand.frame_of_run (F := Ideal) m ρ Cert.KernelIdeal.Hand.fgtOut
    (fun c => Cert.KernelIdeal.Hand.body_obligation0 _ c) (fun c => Cert.KernelIdeal.Hand.body_obligation1_fgt _ c)

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.ref_run (F := Ideal) m ρ)

/-- Both idealised programs end at the specification of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (Cert.KernelIdeal.Hand.a0 m c) (Cert.KernelIdeal.Hand.a1 m c) (Cert.KernelIdeal.Hand.a2 m c) (Cert.KernelIdeal.Hand.a3 m c), ?_, ?_⟩
  · refine (θ_run Cert.KernelIdeal.defs _ _).mono (fun r h c => ?_)
      (Cert.KernelIdeal.Hand.run_main (F := Ideal) m ρ (fun _ => false)
        (fun c => Cert.KernelIdeal.Hand.body_obligation0 _ c) (fun c => Cert.KernelIdeal.Hand.body_obligation1 _ c))
    obtain ⟨o, ho, hm⟩ := h c
    have e : o = (Cert.KernelIdeal.Hand.dat1 (F := Ideal) (Cert.KernelIdeal.Hand.Ve3 m) c).arrAt 2 Cert.KernelIdeal.cfg1.N :=
      (Pipeline.Dat.toRForget_arrAt_iff (Cert.KernelIdeal.Hand.dat1 (F := Ideal) (Cert.KernelIdeal.Hand.Ve3 m) c)
        (fgt := fun _ => false) (w := (2 : Fin Cert.KernelIdeal.cfg1.W)) rfl Cert.KernelIdeal.cfg1.N o).mp ho
    subst e
    exact ⟨(hm _ (Cert.KernelIdeal.Hand.mem_uc Cert.KernelIdeal.main_v5 (by decide))).trans (Cert.KernelIdeal.Hand.kernel_val m c),
      (hm _ (Cert.KernelIdeal.Hand.mem_uc Cert.KernelIdeal.main_arg0 (by decide))).trans (Cert.KernelIdeal.Hand.W5_arg0 m c _),
      (hm _ (Cert.KernelIdeal.Hand.mem_uc Cert.KernelIdeal.main_arg1 (by decide))).trans (Cert.KernelIdeal.Hand.W5_arg1 m c _),
      (hm _ (Cert.KernelIdeal.Hand.mem_uc Cert.KernelIdeal.main_arg2 (by decide))).trans (Cert.KernelIdeal.Hand.W5_arg2 m c _),
      (hm _ (Cert.KernelIdeal.Hand.mem_uc Cert.KernelIdeal.main_arg3 (by decide))).trans (Cert.KernelIdeal.Hand.W5_arg3 m c _)⟩
  · refine (θ_run Cert.ReferenceIdeal.defs _ _).mono (fun r h c => ⟨(h c).1.trans ?_, (h c).2⟩)
      (Cert.ReferenceIdeal.Hand.ref_run (F := Ideal) m' ρ')
    rw [(hagree c).1, (hagree c).2.1, (hagree c).2.2.1, (hagree c).2.2.2]
    exact Cert.ReferenceIdeal.Hand.refVal_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
